-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S5000x256 : Shape := ⟨2, ![5000, 256]⟩
abbrev S_ : Shape := ⟨0, ![]⟩
abbrev S850000x1 : Shape := ⟨2, ![850000, 1]⟩
abbrev S850000x256 : Shape := ⟨2, ![850000, 256]⟩
abbrev S6800x256 : Shape := ⟨2, ![6800, 256]⟩
abbrev S6800x1 : Shape := ⟨2, ![6800, 1]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S6800x128 : Shape := ⟨2, ![6800, 128]⟩
abbrev S1x128 : Shape := ⟨2, ![1, 128]⟩

abbrev nBuf : Space → Nat
  | .hbm => 121
  | .vmem => 32
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x256, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x128, .f32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .i1⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000, .f32⟩
  | .hbm, ⟨103, _⟩ => ⟨S850000, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x128, .f32⟩
  | .hbm, ⟨113, _⟩ => ⟨S850000x1, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S6800x256, .f32⟩
  | .local _ .vmem, ⟨6, _⟩ => ⟨S6800x256, .f32⟩
  | .local _ .vmem, ⟨7, _⟩ => ⟨S6800x1, .f32⟩
  | .local _ .vmem, ⟨8, _⟩ => ⟨S6800x1, .f32⟩
  | .local _ .vmem, ⟨9, _⟩ => ⟨S6800x256, .f32⟩
  | .local _ .vmem, ⟨10, _⟩ => ⟨S6800x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S256x128, .f32⟩
  | .local _ .vmem, ⟨19, _⟩ => ⟨S5000x128, .f32⟩
  | .local _ .vmem, ⟨20, _⟩ => ⟨S5000x128, .f32⟩
  | .local _ .vmem, ⟨21, _⟩ => ⟨S6800x128, .f32⟩
  | .local _ .vmem, ⟨22, _⟩ => ⟨S6800x128, .f32⟩
  | .local _ .vmem, ⟨23, _⟩ => ⟨S6800x1, .f32⟩
  | .local _ .vmem, ⟨24, _⟩ => ⟨S6800x1, .f32⟩
  | .local _ .vmem, ⟨25, _⟩ => ⟨S6800x128, .f32⟩
  | .local _ .vmem, ⟨26, _⟩ => ⟨S6800x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_c_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_17 : Ref sig .tc := ⟨.hbm, 94, rfl⟩
abbrev main_v65 : Ref sig .tc := ⟨.hbm, 95, rfl⟩
abbrev main_v66 : Ref sig .tc := ⟨.hbm, 96, rfl⟩
abbrev main_c_18 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_21 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6800x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6800x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6800x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6800x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6800x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S6800x256_S6800x256_0_0 : ∀ a, (![0, 0] : Fin 2 → Nat) a + S6800x256.size a ≤ S6800x256.size a
  h_S6800x256 : 0 < S6800x256.numel
  shapeCasts_S6800x256_S6800x256 : S6800x256.ShapeCasts S6800x256
  inb_S6800x1_S6800x1_0_0 : ∀ a, (![0, 0] : Fin 2 → Nat) a + S6800x1.size a ≤ S6800x1.size a
  h_S6800x1 : 0 < S6800x1.numel
  shapeCasts_S6800x1_S6800x1 : S6800x1.ShapeCasts S6800x1
  broadcasts_S6800x1_S6800x256 : S6800x1.Broadcasts S6800x256
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  inb_S6800x128_S6800x128_0_0 : ∀ a, (![0, 0] : Fin 2 → Nat) a + S6800x128.size a ≤ S6800x128.size a
  h_S6800x128 : 0 < S6800x128.numel
  shapeCasts_S6800x128_S6800x128 : S6800x128.ShapeCasts S6800x128
  broadcasts_S6800x1_S6800x128 : S6800x1.Broadcasts S6800x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6800x256.size a ≤ S850000x256.size a
  hwx1_0 : ∀ i : grid1.Coords, EltTy.bits .f32 = 32 ∨ (Rect.block (s := S850000x256) S6800x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6800x1.size a ≤ S850000x1.size a
  hwx1_1 : ∀ i : grid1.Coords, EltTy.bits .f32 = 32 ∨ (Rect.block (s := S850000x1) S6800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6800x256.size a ≤ S850000x256.size a
  hwx1_2 : ∀ i : grid1.Coords, EltTy.bits .f32 = 32 ∨ (Rect.block (s := S850000x256) S6800x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6800x128.size a ≤ S850000x128.size a
  hwx4_0 : ∀ i : grid4.Coords, EltTy.bits .f32 = 32 ∨ (Rect.block (s := S850000x128) S6800x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6800x1.size a ≤ S850000x1.size a
  hwx4_1 : ∀ i : grid4.Coords, EltTy.bits .f32 = 32 ∨ (Rect.block (s := S850000x1) S6800x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6800x128.size a ≤ S850000x128.size a
  hwx4_2 : ∀ i : grid4.Coords, EltTy.bits .f32 = 32 ∨ (Rect.block (s := S850000x128) S6800x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S6800x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S6800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S6800x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S6800x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S6800x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S6800x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x256, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000, .f32⟩
  | .hbm, ⟨108, _⟩ => ⟨S850000, .f32⟩
  | .hbm, ⟨109, _⟩ => ⟨S_, .i32⟩
  | .hbm, ⟨110, _⟩ => ⟨S850000, .i32⟩
  | .hbm, ⟨111, _⟩ => ⟨S850000, .i1⟩
  | .hbm, ⟨112, _⟩ => ⟨S_, .i32⟩
  | .hbm, ⟨113, _⟩ => ⟨S850000, .i32⟩
  | .hbm, ⟨114, _⟩ => ⟨S850000, .i32⟩
  | .hbm, ⟨115, _⟩ => ⟨S850000, .i32⟩
  | .hbm, ⟨116, _⟩ => ⟨S850000x1, .i32⟩
  | .hbm, ⟨117, _⟩ => ⟨S850000x128, .f32⟩
  | .hbm, ⟨118, _⟩ => ⟨S850000x1, .f32⟩
  | .hbm, ⟨119, _⟩ => ⟨S850000x128, .f32⟩
  | .hbm, ⟨120, _⟩ => ⟨S850000x128, .f32⟩
  | .hbm, ⟨121, _⟩ => ⟨S_, .f32⟩
  | .hbm, ⟨122, _⟩ => ⟨S50000x128, .f32⟩
  | .hbm, ⟨123, _⟩ => ⟨S850000x1, .i32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Stage.lean ====
import proofs.«141999_j36636071035639_1_alg».proof.ReferenceIdeal
import proofs.«141999_j36636071035639_1_alg».proof.Proof.Gen.ReferenceIdeal
import Idealize.ShloMosaic.PureOps.Ideal

/-!
  The six operand-level steps at which the two programs differ in spelling, each as ONE function of its
  operand arrays over the extended reals, written with the host program's operations:
  a product of matrices x · w (contraction over the shared axis), a row scaling g[e, j] · n[e, 0],
  and a bias row added to every row, a[i, j] + b[0, j], once followed by the positive part max(·, 0).
-/

noncomputable section

namespace Cert.Gcn

open Idealize.ShloMosaic Cert.ReferenceIdeal Cert.ReferenceIdeal.Facts₀

/-- x · w for x : [50000, 256], w : [256, 256]: entry (i, j) is the sum over k of x[i, k] · w[k, j]. -/
def mm256 (x : FVec Ideal S50000x256 .f32) (w : FVec Ideal S256x256 .f32) : FVec Ideal S50000x256 .f32 :=
  Host.dotGeneral dot_S50000x256_S256x256_S50000x256_1_0_0_1_n_n none x w

/-- x · w for x : [50000, 256], w : [256, 128]. -/
def mm128 (x : FVec Ideal S50000x256 .f32) (w : FVec Ideal S256x128 .f32) : FVec Ideal S50000x128 .f32 :=
  Host.dotGeneral dot_S50000x256_S256x128_S50000x128_1_0_0_1_n_n none x w

/-- Row e of g : [850000, 256] scaled by the one entry n[e, 0] of the column n : [850000, 1]. -/
def scale256 (g : FVec Ideal S850000x256 .f32) (n : FVec Ideal S850000x1 .f32) : FVec Ideal S850000x256 .f32 :=
  mulf g (broadcastInDim S850000x256 ![0, 1] bcast_S850000x1_S850000x256_0_1 n)

/-- Row e of g : [850000, 128] scaled by n[e, 0]. -/
def scale128 (g : FVec Ideal S850000x128 .f32) (n : FVec Ideal S850000x1 .f32) : FVec Ideal S850000x128 .f32 :=
  mulf g (broadcastInDim S850000x128 ![0, 1] bcast_S850000x1_S850000x128_0_1 n)

/-- max(a[i, j] + b[0, j], 0) for a : [50000, 256] and the row b : [1, 256]. -/
def biasRelu256 (a : FVec Ideal S50000x256 .f32) (b : FVec Ideal S1x256 .f32) : FVec Ideal S50000x256 .f32 :=
  maximumf (addf a (broadcastInDim S50000x256 ![0, 1] bcast_S1x256_S50000x256_0_1 b))
    (broadcastInDim S50000x256 ![] bcast_S_S50000x256 (constant S_ .f32 0x00000000#32))

/-- a[i, j] + b[0, j] for a : [50000, 128] and the row b : [1, 128]. -/
def bias128 (a : FVec Ideal S50000x128 .f32) (b : FVec Ideal S1x128 .f32) : FVec Ideal S50000x128 .f32 :=
  addf a (broadcastInDim S50000x128 ![0, 1] bcast_S1x128_S50000x128_0_1 b)

end Cert.Gcn

end
-- ==== Proof.RegionMatmul.lean ====
import proofs.«141999_j36636071035639_1_alg».proof.Proof.Gen.KernelIdeal.Frame
import proofs.«141999_j36636071035639_1_alg».proof.Proof.Stage
import Idealize.ShloMosaic.PureOps.Ideal.Laws
import Idealize.ShloMosaic.Lib.ValueIdx
import Idealize.ShloMosaic.Lib.Pipeline.Value
import Idealize.ShloMosaic.Lib.ValueLayout

/-!
  The two matrix-product launches over the extended reals. Each grid point takes a block of 5000 rows of the
  left array and the whole right array, and writes the 5000 corresponding rows of the product; the ten blocks
  tile the 50000 rows, so the output array after the launch is the whole product x · w of the two input arrays
  as the launch found them.
-/

set_option maxRecDepth 16384

noncomputable section

namespace Cert.Gcn.Region

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b)) (c : Dev nD)

/-- The origin of a two-axis buffer, as the constant function. -/
theorem origin2 : (![0, 0] : Fin 2 → Nat) = fun _ => 0 := funext fun a => by fin_cases a <;> rfl

/-! ## The first product: [50000,256] · [256,256] -/

/-! The operand indices of a block's product at output index i and contraction index k, axis by axis: the left operand
    is read at (i 0, k), the right at (k, i 1). -/
theorem rowsL256_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem rowsL256_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rowsR256_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rowsR256_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Entry (p, q) of the product of a block of 5000 rows with the whole right array, accumulated from zero: the sum
    over k of x0(p,k) · x1(k,q). A change of float format is the identity on the extended reals. -/
theorem blockProd256 (x0 : Vec Ideal S5000x256 .f32) (x1 : Vec Ideal S256x256 .f32) (p : Fin 5000) (q : Fin 256) :
    k0_pay1 (F := Ideal) x0 x1 (ix2 p q) = ∑ k : Fin 256, x0 (ix2 p k) * x1 (ix2 k q) := by
  unfold k0_pay1
  show FloatOps.matmul dot_S5000x256_S256x256_S5000x256_1_0_0_1_n_n none (truncf (F := Ideal) .bf16 (x0 : FVec Ideal S5000x256 .f32) bitsLt_bf16_f32) (truncf (F := Ideal) .bf16 (x1 : FVec Ideal S256x256 .f32) bitsLt_bf16_f32) (constant (F := Ideal) S5000x256 .f32 0x00000000#32) (ix2 p q) = _
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact rowsL256_0 _ _
    | ⟨1, _⟩ => exact (rowsL256_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rowsR256_0 _ _).trans hk
    | ⟨1, _⟩ => exact rowsR256_1 _ _)
  rw [el, er]
  rfl

/-! The same for the product of the whole arrays. -/
theorem wholeL256_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
theorem wholeL256_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem wholeR256_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem wholeR256_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl

/-- Entry (r, q) of the whole product x · w: the sum over k of x(r,k) · w(k,q). -/
theorem wholeProd256 (x : FVec Ideal Cert.ReferenceIdeal.S50000x256 .f32) (w : FVec Ideal Cert.ReferenceIdeal.S256x256 .f32) (r : Fin 50000) (q : Fin 256) :
    Cert.Gcn.mm256 x w (ix2 r q) = ∑ k : Fin 256, x (ix2 r k) * w (ix2 k q) := by
  unfold Cert.Gcn.mm256
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 r q) ((contrEquiv1 Cert.ReferenceIdeal.dot_S50000x256_S256x256_S50000x256_1_0_0_1_n_n 256 rfl rfl).symm k) = ix2 r k := funext fun a => Fin.ext (by
    match a with
    | ⟨0, _⟩ => exact wholeL256_0 _ _
    | ⟨1, _⟩ => exact (wholeL256_1 _ _).trans hk)
  have er : Cert.ReferenceIdeal.dot_S50000x256_S256x256_S50000x256_1_0_0_1_n_n.rhsIdx (ix2 r q) ((contrEquiv1 Cert.ReferenceIdeal.dot_S50000x256_S256x256_S50000x256_1_0_0_1_n_n 256 rfl rfl).symm k) = ix2 k q := funext fun a => Fin.ext (by
    match a with
    | ⟨0, _⟩ => exact (wholeR256_0 _ _).trans hk
    | ⟨1, _⟩ => exact wholeR256_1 _ _)
  rw [el, er]

/-- The block index maps of the first product launch, decided over its ten points: the left and output blocks are at
    block row t, block column 0; the right array's one block is at (0, 0) at every point. -/
theorem blockRows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the product of point t's blocks is entry (5000·t + p, q) of x · w: row p of the left block is
    row 5000·t + p of x, and the right block is all of w. -/
theorem pointProd0 (t : Fin cfg0.N) (p : Fin 5000) (q : Fin 256) :
    k0_pay1 (F := Ideal) (iblk0 V c 0 t : Vec Ideal S5000x256 .f32) (iblk0 V c 1 t : Vec Ideal S256x256 .f32) (ix2 p q)
      = Cert.Gcn.mm256 (V c main_arg0) (V c main_arg2) (((cfg0.win 2).blk t).view.emb (ix2 p q)) := by
  obtain ⟨e00, e01, e10, e11, e20, e21⟩ := blockRows0 t
  have ht : t.val < 10 := lt_of_lt_of_eq t.isLt N_0
  have hr : 5000 * t.val + p.val < 50000 := by omega
  have eo : ((cfg0.win 2).blk t).view.emb (ix2 p q) = (ix2 (⟨5000 * t.val + p.val, hr⟩ : Fin 50000) q : S50000x256.Idx) := by
    funext a; apply Fin.ext
    match a with
    | ⟨0, _⟩ => show win0_2.index t (0 : Fin 2) * 5000 + 1 * p.val = 5000 * t.val + p.val; omega
    | ⟨1, _⟩ => show win0_2.index t (1 : Fin 2) * 256 + 1 * q.val = q.val; omega
  rw [eo, blockProd256 (iblk0 V c 0 t) (iblk0 V c 1 t) p q, wholeProd256 (V c main_arg0) (V c main_arg2) ⟨5000 * t.val + p.val, hr⟩ q]
  refine Finset.sum_congr rfl fun k _ => ?_
  have eL : (iblk0 (F := Ideal) V c 0 t : Vec Ideal S5000x256 .f32) (ix2 p k) = V c main_arg0 (ix2 (⟨5000 * t.val + p.val, hr⟩ : Fin 50000) k : S50000x256.Idx) := by
    show V c main_arg0 (((cfg0.win 0).blk t).view.emb (ix2 p k)) = V c main_arg0 _
    refine congrArg _ ?_
    funext a; apply Fin.ext
    match a with
    | ⟨0, _⟩ => show win0_0.index t (0 : Fin 2) * 5000 + 1 * p.val = 5000 * t.val + p.val; omega
    | ⟨1, _⟩ => show win0_0.index t (1 : Fin 2) * 256 + 1 * k.val = k.val; omega
  have eR : (iblk0 (F := Ideal) V c 1 t : Vec Ideal S256x256 .f32) (ix2 k q) = V c main_arg2 (ix2 k q : S256x256.Idx) := by
    show V c main_arg2 (((cfg0.win 1).blk t).view.emb (ix2 k q)) = V c main_arg2 _
    refine congrArg _ ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  rw [eL, eR]

/-- What point t writes back is block t of x · w. -/
theorem flushedProd0 (t : Fin cfg0.N) :
    (dat0 (F := Ideal) V c).flushed 2 t = ((cfg0.win 2).blk t).view.read (Elt Ideal) (Cert.Gcn.mm256 (V c main_arg0) (V c main_arg2)) := by
  show (cfg0.win 2).cut (grid0.coords t) ((dat0 (F := Ideal) V c).after 2 t) = _
  rw [after0_2]
  unfold out0_2
  rw [View.canon_unit_zero origin2]
  simp only [View.ld_unit_zero (S := S5000x256) origin2, View.ld_unit_zero (S := S256x256) origin2]
  funext j
  show k0_pay1 (F := Ideal) (iblk0 V c 0 t : Vec Ideal S5000x256 .f32) (iblk0 V c 1 t : Vec Ideal S256x256 .f32) j
    = Cert.Gcn.mm256 (V c main_arg0) (V c main_arg2) (((cfg0.win 2).blk t).view.emb j)
  revert j
  show ∀ j : S5000x256.Idx, k0_pay1 (F := Ideal) (iblk0 V c 0 t : Vec Ideal S5000x256 .f32) (iblk0 V c 1 t : Vec Ideal S256x256 .f32) j
    = Cert.Gcn.mm256 (V c main_arg0) (V c main_arg2) (((cfg0.win 2).blk t).view.emb j)
  intro j
  obtain ⟨p, q, rfl⟩ : ∃ (p : Fin 5000) (q : Fin 256), j = ix2 p q := ⟨j 0, j 1, eq_ix2 j⟩
  exact pointProd0 V c t p q

/-- An index of the output array is in point t's block iff each coordinate is in the block's range on its axis. -/
theorem memBlock0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v7).slice (win0_2.rect t)).set ↔ _
  rw [View.set_slice_whole, Rect.mem_set_unit]
  exact Iff.rfl

/-- The ten blocks of 5000 rows tile the 50000 rows: row r is in the block of point r / 5000. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have hlt : (i 0).val / 5000 < cfg0.N := by rw [hN]; omega
  obtain ⟨e00, e01, e10, e11, e20, e21⟩ := blockRows0 ⟨(i 0).val / 5000, hlt⟩
  have e20' : win0_2.index ⟨(i 0).val / 5000, hlt⟩ (0 : Fin 2) = (i 0).val / 5000 := e20
  refine ⟨⟨(i 0).val / 5000, hlt⟩, flush0_2 _, ?_⟩
  rw [memBlock0]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 256 ≤ (i 1).val ∧ (i 1).val < win0_2.index ⟨(i 0).val / 5000, hlt⟩ (1 : Fin 2) * 256 + 256; omega

/-! ## The second product: [50000,256] · [256,128] -/

/-! The operand indices of a block's product at output index i and contraction index k, axis by axis: the left operand
    is read at (i 0, k), the right at (k, i 1). -/
theorem rowsL128_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem rowsL128_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rowsR128_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rowsR128_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the product of a block of 5000 rows with the whole right array, accumulated from zero: the sum
    over k of x0(p,k) · x1(k,q). A change of float format is the identity on the extended reals, and so is a reshape to the same shape. -/
theorem blockProd128 (x0 : Vec Ideal S5000x256 .f32) (x1 : Vec Ideal S256x128 .f32) (p : Fin 5000) (q : Fin 128) :
    k3_pay1 (F := Ideal) x0 x1 (ix2 p q) = ∑ k : Fin 256, x0 (ix2 p k) * x1 (ix2 k q) := by
  unfold k3_pay1
  show FloatOps.matmul dot_S5000x256_S256x128_S5000x128_1_0_0_1_n_n none (truncf (F := Ideal) .bf16 (shapeCast S5000x256 (x0 : FVec Ideal S5000x256 .f32) shapeCasts_S5000x256_S5000x256) bitsLt_bf16_f32) (truncf (F := Ideal) .bf16 (x1 : FVec Ideal S256x128 .f32) bitsLt_bf16_f32) (constant (F := Ideal) S5000x128 .f32 0x00000000#32) (ix2 p q) = _
  rw [shapeCast_self]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact rowsL128_0 _ _
    | ⟨1, _⟩ => exact (rowsL128_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rowsR128_0 _ _).trans hk
    | ⟨1, _⟩ => exact rowsR128_1 _ _)
  rw [el, er]
  rfl

/-! The same for the product of the whole arrays. -/
theorem wholeL128_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem wholeL128_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem wholeR128_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem wholeR128_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- Entry (r, q) of the whole product x · w: the sum over k of x(r,k) · w(k,q). -/
theorem wholeProd128 (x : FVec Ideal Cert.ReferenceIdeal.S50000x256 .f32) (w : FVec Ideal Cert.ReferenceIdeal.S256x128 .f32) (r : Fin 50000) (q : Fin 128) :
    Cert.Gcn.mm128 x w (ix2 r q) = ∑ k : Fin 256, x (ix2 r k) * w (ix2 k q) := by
  unfold Cert.Gcn.mm128
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((contrEquiv1 Cert.ReferenceIdeal.dot_S50000x256_S256x128_S50000x128_1_0_0_1_n_n 256 rfl rfl).symm k) = ix2 r k := funext fun a => Fin.ext (by
    match a with
    | ⟨0, _⟩ => exact wholeL128_0 _ _
    | ⟨1, _⟩ => exact (wholeL128_1 _ _).trans hk)
  have er : Cert.ReferenceIdeal.dot_S50000x256_S256x128_S50000x128_1_0_0_1_n_n.rhsIdx (ix2 r q) ((contrEquiv1 Cert.ReferenceIdeal.dot_S50000x256_S256x128_S50000x128_1_0_0_1_n_n 256 rfl rfl).symm k) = ix2 k q := funext fun a => Fin.ext (by
    match a with
    | ⟨0, _⟩ => exact (wholeR128_0 _ _).trans hk
    | ⟨1, _⟩ => exact wholeR128_1 _ _)
  rw [el, er]

/-- The block index maps of the second product launch, decided over its ten points: the left and output blocks are at
    block row t, block column 0; the right array's one block is at (0, 0) at every point. -/
theorem blockRows3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the product of point t's blocks is entry (5000·t + p, q) of x · w: row p of the left block is
    row 5000·t + p of x, and the right block is all of w. -/
theorem pointProd3 (t : Fin cfg3.N) (p : Fin 5000) (q : Fin 128) :
    k3_pay1 (F := Ideal) (iblk3 V c 0 t : Vec Ideal S5000x256 .f32) (iblk3 V c 1 t : Vec Ideal S256x128 .f32) (ix2 p q)
      = Cert.Gcn.mm128 (V c main_v46) (V c main_arg4) (((cfg3.win 2).blk t).view.emb (ix2 p q)) := by
  obtain ⟨e00, e01, e10, e11, e20, e21⟩ := blockRows3 t
  have ht : t.val < 10 := lt_of_lt_of_eq t.isLt N_3
  have hr : 5000 * t.val + p.val < 50000 := by omega
  have eo : ((cfg3.win 2).blk t).view.emb (ix2 p q) = (ix2 (⟨5000 * t.val + p.val, hr⟩ : Fin 50000) q : S50000x128.Idx) := by
    funext a; apply Fin.ext
    match a with
    | ⟨0, _⟩ => show win3_2.index t (0 : Fin 2) * 5000 + 1 * p.val = 5000 * t.val + p.val; omega
    | ⟨1, _⟩ => show win3_2.index t (1 : Fin 2) * 128 + 1 * q.val = q.val; omega
  rw [eo, blockProd128 (iblk3 V c 0 t) (iblk3 V c 1 t) p q, wholeProd128 (V c main_v46) (V c main_arg4) ⟨5000 * t.val + p.val, hr⟩ q]
  refine Finset.sum_congr rfl fun k _ => ?_
  have eL : (iblk3 (F := Ideal) V c 0 t : Vec Ideal S5000x256 .f32) (ix2 p k) = V c main_v46 (ix2 (⟨5000 * t.val + p.val, hr⟩ : Fin 50000) k : S50000x256.Idx) := by
    show V c main_v46 (((cfg3.win 0).blk t).view.emb (ix2 p k)) = V c main_v46 _
    refine congrArg _ ?_
    funext a; apply Fin.ext
    match a with
    | ⟨0, _⟩ => show win3_0.index t (0 : Fin 2) * 5000 + 1 * p.val = 5000 * t.val + p.val; omega
    | ⟨1, _⟩ => show win3_0.index t (1 : Fin 2) * 256 + 1 * k.val = k.val; omega
  have eR : (iblk3 (F := Ideal) V c 1 t : Vec Ideal S256x128 .f32) (ix2 k q) = V c main_arg4 (ix2 k q : S256x128.Idx) := by
    show V c main_arg4 (((cfg3.win 1).blk t).view.emb (ix2 k q)) = V c main_arg4 _
    refine congrArg _ ?_
    funext a; apply Fin.ext
    match a with
    | ⟨0, _⟩ => show win3_1.index t (0 : Fin 2) * 256 + 1 * k.val = k.val; omega
    | ⟨1, _⟩ => show win3_1.index t (1 : Fin 2) * 128 + 1 * q.val = q.val; omega
  rw [eL, eR]

/-- What point t writes back is block t of x · w. -/
theorem flushedProd3 (t : Fin cfg3.N) :
    (dat3 (F := Ideal) V c).flushed 2 t = ((cfg3.win 2).blk t).view.read (Elt Ideal) (Cert.Gcn.mm128 (V c main_v46) (V c main_arg4)) := by
  show (cfg3.win 2).cut (grid3.coords t) ((dat3 (F := Ideal) V c).after 2 t) = _
  rw [after3_2]
  unfold out3_2
  rw [View.canon_unit_zero origin2]
  simp only [View.ld_unit_zero (S := S5000x256) origin2, View.ld_unit_zero (S := S256x128) origin2]
  funext j
  show k3_pay1 (F := Ideal) (iblk3 V c 0 t : Vec Ideal S5000x256 .f32) (iblk3 V c 1 t : Vec Ideal S256x128 .f32) j
    = Cert.Gcn.mm128 (V c main_v46) (V c main_arg4) (((cfg3.win 2).blk t).view.emb j)
  revert j
  show ∀ j : S5000x128.Idx, k3_pay1 (F := Ideal) (iblk3 V c 0 t : Vec Ideal S5000x256 .f32) (iblk3 V c 1 t : Vec Ideal S256x128 .f32) j
    = Cert.Gcn.mm128 (V c main_v46) (V c main_arg4) (((cfg3.win 2).blk t).view.emb j)
  intro j
  obtain ⟨p, q, rfl⟩ : ∃ (p : Fin 5000) (q : Fin 128), j = ix2 p q := ⟨j 0, j 1, eq_ix2 j⟩
  exact pointProd3 V c t p q

/-- An index of the output array is in point t's block iff each coordinate is in the block's range on its axis. -/
theorem memBlock3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v47).slice (win3_2.rect t)).set ↔ _
  rw [View.set_slice_whole, Rect.mem_set_unit]
  exact Iff.rfl

/-- The ten blocks of 5000 rows tile the 50000 rows: row r is in the block of point r / 5000. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have hlt : (i 0).val / 5000 < cfg3.N := by rw [hN]; omega
  obtain ⟨e00, e01, e10, e11, e20, e21⟩ := blockRows3 ⟨(i 0).val / 5000, hlt⟩
  have e20' : win3_2.index ⟨(i 0).val / 5000, hlt⟩ (0 : Fin 2) = (i 0).val / 5000 := e20
  refine ⟨⟨(i 0).val / 5000, hlt⟩, flush3_2 _, ?_⟩
  rw [memBlock3]
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 128 ≤ (i 1).val ∧ (i 1).val < win3_2.index ⟨(i 0).val / 5000, hlt⟩ (1 : Fin 2) * 128 + 128; omega

/-- After the first product launch its output array is x · w of its two input arrays ([50000,256] · [256,256]). -/
theorem arr0 : (dat0 (F := Ideal) V c).arrAt 2 cfg0.N = Cert.Gcn.mm256 (V c main_arg0) (V c main_arg2) :=
  (dat0 (F := Ideal) V c).arrAt_eq_of_cover 2 (Cert.Gcn.mm256 (V c main_arg0) (V c main_arg2)) (fun t _ => flushedProd0 V c t) covered0

/-- After the second product launch its output array is x · w of its two input arrays ([50000,256] · [256,128]). -/
theorem arr3 : (dat3 (F := Ideal) V c).arrAt 2 cfg3.N = Cert.Gcn.mm128 (V c main_v46) (V c main_arg4) :=
  (dat3 (F := Ideal) V c).arrAt_eq_of_cover 2 (Cert.Gcn.mm128 (V c main_v46) (V c main_arg4)) (fun t _ => flushedProd3 V c t) covered3
end Cert.Gcn.Region

end
-- ==== Proof.RegionScale.lean ====
import proofs.«141999_j36636071035639_1_alg».proof.Proof.Gen.KernelIdeal.Frame
import proofs.«141999_j36636071035639_1_alg».proof.Proof.Stage
import Idealize.ShloMosaic.PureOps.Ideal.Laws
import Idealize.ShloMosaic.Lib.ValueIdx
import Idealize.ShloMosaic.Lib.Pipeline.Value
import Idealize.ShloMosaic.Lib.ValueLayout

/-!
  The two row-scaling launches over the extended reals. Each grid point takes 6800 rows of the gathered array
  and the matching 6800 entries of the coefficient column and writes each row times its coefficient; the 125
  blocks tile the 850000 rows, so the output array after the launch is g[e, j] · n[e, 0] of the two input arrays.
-/

set_option maxRecDepth 16384

noncomputable section

namespace Cert.Gcn.Region

open Idealize.ShloMosaic Idealize.ShloMosaic.TcCoe Idealize.SL.Sem Idealize.ShloMosaic.ValueIdx
open Cert.KernelIdeal Cert.KernelIdeal.Gen

/-- The zero offsets of a whole-block load or store, as the constant function. -/
theorem zero_offsets : (![0, 0] : Fin 2 → Nat) = fun _ => 0 := funext fun a => by fin_cases a <;> rfl

/-! ## The coefficient column spread over the columns, read at an entry -/

/-- A column [a, 1] spread to [a, b] reads, at the entry y, the column's entry of y's row: the index z of the column
    whose row is y's (its second coordinate can only be 0). -/
theorem broadcastTo_col_apply {α : Type} {a b : ℕ} (v : (⟨2, ![a, 1]⟩ : Shape).Idx → α)
    (h : (⟨2, ![a, 1]⟩ : Shape).Broadcasts ⟨2, ![a, b]⟩) (y : (⟨2, ![a, b]⟩ : Shape).Idx)
    (z : (⟨2, ![a, 1]⟩ : Shape).Idx) (hz : (z 0).val = (y 0).val) :
    broadcastTo ⟨2, ![a, b]⟩ v h y = v z := by
  refine broadcastTo_apply v h y z fun ax => ?_
  match ax with
  | ⟨0, _⟩ =>
    show (z 0).val = if a = 1 then 0 else (y 0).val
    split
    · have := idx2_lt0 z; omega
    · exact hz
  | ⟨1, _⟩ =>
    show (z 1).val = if (1 : ℕ) = 1 then 0 else (y 1).val
    rw [if_pos rfl]
    have := idx2_lt1 z; omega

/-- The host's spreading of a column [a, 1] along the second axis of [a, b] reads the same entry. -/
theorem broadcastInDim_col_apply {α : Type} {a b : ℕ}
    (h : (⟨2, ![a, 1]⟩ : Shape).BroadcastsInDim ⟨2, ![a, b]⟩ ![0, 1]) (v : (⟨2, ![a, 1]⟩ : Shape).Idx → α)
    (i : (⟨2, ![a, b]⟩ : Shape).Idx) (k : (⟨2, ![a, 1]⟩ : Shape).Idx) (hk : (k 0).val = (i 0).val) :
    broadcastInDim ⟨2, ![a, b]⟩ ![0, 1] h v i = v k := by
  refine broadcastInDim_apply _ h v i k fun ax => ?_
  match ax with
  | ⟨0, _⟩ =>
    show (k 0).val = if a = 1 then 0 else (i 0).val
    split
    · have := idx2_lt0 k; omega
    · exact hk
  | ⟨1, _⟩ =>
    show (k 1).val = if (1 : ℕ) = 1 then 0 else (i 1).val
    rw [if_pos rfl]
    have := idx2_lt1 k; omega

variable (V : (c : Dev nD) → (b : Ref sig .tc) → Buf (Elt Ideal) ((c : Thread nD τ).loc b)) (c : Dev nD)

/-! ## The first scaling launch: 256 columns -/

/-- The body's arithmetic at a block entry y: the entry of the row block times the coefficient of y's row. -/
theorem pay256 (x0 : Vec Ideal S6800x256 .f32) (x1 : Vec Ideal S6800x1 .f32) (y : S6800x256.Idx) (z : S6800x1.Idx)
    (hz : (z 0).val = (y 0).val) : k1_pay1 x0 x1 y = x0 y * x1 z := by
  unfold k1_pay1
  simp only [shapeCast_self]
  rw [mulf_apply, broadcastTo_col_apply x1 _ y z hz]

/-- The stage function at an array entry i: g's entry times the coefficient of i's row. -/
theorem scale256_apply (g : FVec Ideal S850000x256 .f32) (n : FVec Ideal S850000x1 .f32) (i : S850000x256.Idx)
    (k : S850000x1.Idx) (hk : (k 0).val = (i 0).val) : Cert.Gcn.scale256 g n i = g i * n k := by
  unfold Cert.Gcn.scale256
  rw [mulf_apply, broadcastInDim_col_apply _ n i k hk]

/-- The three windows of the first scaling launch move together: at grid point t each takes block row t and the
    one block column 0 of its array (decided over the 125 points). -/
theorem block_index256 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Entry y of the block of g at point t is g's entry at row 6800·t + y₀ and column y₁. -/
theorem rows256 (t : Fin cfg1.N) (y : S6800x256.Idx) (i : S850000x256.Idx)
    (h0 : (i 0).val = t.val * 6800 + (y 0).val) (h1 : (i 1).val = (y 1).val) :
    iblk1 (F := Ideal) V c 0 t y = V c main_v39 i := by
  obtain ⟨e0, e1, -, -, -, -⟩ := block_index256 t
  show V c main_v39 (((cfg1.win 0).blk t).view.emb y) = V c main_v39 i
  refine congrArg _ (funext fun a => Fin.ext ?_)
  match a with
  | ⟨0, _⟩ => show win1_0.index t (0 : Fin 2) * 6800 + 1 * (y 0).val = (i 0).val; omega
  | ⟨1, _⟩ => show win1_0.index t (1 : Fin 2) * 256 + 1 * (y 1).val = (i 1).val; omega

/-- Entry z of the block of the coefficient column at point t is the coefficient of row 6800·t + z₀. -/
theorem coeffs256 (t : Fin cfg1.N) (z : S6800x1.Idx) (k : S850000x1.Idx)
    (h0 : (k 0).val = t.val * 6800 + (z 0).val) :
    iblk1 (F := Ideal) V c 1 t z = V c main_v40 k := by
  obtain ⟨-, -, e2, e3, -, -⟩ := block_index256 t
  show V c main_v40 (((cfg1.win 1).blk t).view.emb z) = V c main_v40 k
  refine congrArg _ (funext fun a => Fin.ext ?_)
  match a with
  | ⟨0, _⟩ => show win1_1.index t (0 : Fin 2) * 6800 + 1 * (z 0).val = (k 0).val; omega
  | ⟨1, _⟩ =>
    show win1_1.index t (1 : Fin 2) * 1 + 1 * (z 1).val = (k 1).val
    have := idx2_lt1 z; have := idx2_lt1 k; omega

/-- What point t writes back is block t of the scaled array: at the block entry j the body multiplies g's entry
    at row 6800·t + j₀ by that row's coefficient, and that row is where the output block puts j. -/
theorem flushed256 (t : Fin cfg1.N) :
    (dat1 (F := Ideal) V c).flushed 2 t
      = ((cfg1.win 2).blk t).view.read (Elt Ideal) (Cert.Gcn.scale256 (V c main_v39) (V c main_v40)) := by
  show (cfg1.win 2).cut (grid1.coords t) ((dat1 V c).after 2 t) = _
  rw [after1_2]
  unfold out1_2
  rw [View.canon_unit_zero zero_offsets]
  simp only [View.ld_unit_zero (S := S6800x256) zero_offsets, View.ld_unit_zero (S := S6800x1) zero_offsets]
  obtain ⟨-, -, -, -, e4, e5⟩ := block_index256 t
  funext j
  have hj0 : (j 0).val < 6800 := (j 0).isLt
  have hj1 : (j 1).val < 256 := (j 1).isLt
  have ht : t.val < 125 := lt_of_lt_of_eq t.isLt N_1
  have hrow : t.val * 6800 + (j 0).val < 850000 := by omega
  -- the entry of the output array under j, its row, and the entry of the coefficient block beside j
  have hr0 : ((((cfg1.win 2).blk t).view.emb j) 0).val = t.val * 6800 + (j 0).val := by
    show win1_2.index t (0 : Fin 2) * 6800 + 1 * (j 0).val = _; omega
  have hr1 : ((((cfg1.win 2).blk t).view.emb j) 1).val = (j 1).val := by
    show win1_2.index t (1 : Fin 2) * 256 + 1 * (j 1).val = _; omega
  refine (pay256 (iblk1 V c 0 t) (iblk1 V c 1 t) ((cfg1.win 2).xinj (grid1.coords t) j)
    (ix2 (⟨(j 0).val, hj0⟩ : Fin 6800) (0 : Fin 1)) rfl).trans ?_
  refine Eq.trans ?_ (scale256_apply (V c main_v39) (V c main_v40) (((cfg1.win 2).blk t).view.emb j)
    (ix2 (⟨t.val * 6800 + (j 0).val, hrow⟩ : Fin 850000) (0 : Fin 1)) hr0.symm).symm
  rw [rows256 V c t ((cfg1.win 2).xinj (grid1.coords t) j) (((cfg1.win 2).blk t).view.emb j) hr0 hr1,
    coeffs256 V c t (ix2 (⟨(j 0).val, hj0⟩ : Fin 6800) (0 : Fin 1)) (ix2 (⟨t.val * 6800 + (j 0).val, hrow⟩ : Fin 850000) (0 : Fin 1)) rfl]

/-- An entry of the array is in point t's block iff each coordinate is in the block's range on its axis. -/
theorem mem_block256 (t : Fin cfg1.N) (i : S850000x256.Idx) :
    i ∈ ((cfg1.win 2).blk t).view.set ↔ ∀ a : Fin 2, win1_2.index t a * S6800x256.size a ≤ (i a).val
      ∧ (i a).val < win1_2.index t a * S6800x256.size a + S6800x256.size a := by
  show i ∈ ((View.whole main_v41).slice (win1_2.rect t)).set ↔ _
  rw [View.set_slice_whole, Rect.mem_set_unit]
  exact Iff.rfl

/-- The blocks tile the rows: entry i lies in the block of the point i₀ / 6800. -/
theorem cover256 (i : S850000x256.Idx) :
    ∃ t : Fin cfg1.N, (cfg1.win 2).flush t = true ∧ i ∈ ((cfg1.win 2).blk t).view.set := by
  have hi0 : (i 0).val < 850000 := (i 0).isLt
  have hi1 : (i 1).val < 256 := (i 1).isLt
  have hN : cfg1.N = 125 := N_1
  have hlt : (i 0).val / 6800 < cfg1.N := by rw [hN]; omega
  obtain ⟨-, -, -, -, e4, e5⟩ := block_index256 ⟨(i 0).val / 6800, hlt⟩
  refine ⟨⟨(i 0).val / 6800, hlt⟩, flush1_2 _, ?_⟩
  rw [mem_block256]
  intro a
  match a with
  | ⟨0, _⟩ =>
    show win1_2.index ⟨(i 0).val / 6800, hlt⟩ (0 : Fin 2) * 6800 ≤ (i 0).val
      ∧ (i 0).val < win1_2.index ⟨(i 0).val / 6800, hlt⟩ (0 : Fin 2) * 6800 + 6800
    rw [e4]; show (i 0).val / 6800 * 6800 ≤ (i 0).val ∧ (i 0).val < (i 0).val / 6800 * 6800 + 6800; omega
  | ⟨1, _⟩ =>
    show win1_2.index ⟨(i 0).val / 6800, hlt⟩ (1 : Fin 2) * 256 ≤ (i 1).val
      ∧ (i 1).val < win1_2.index ⟨(i 0).val / 6800, hlt⟩ (1 : Fin 2) * 256 + 256
    rw [e5]; omega

/-- After the first scaling launch its output array is g[e, j] · n[e, 0] ([850000,256] by [850000,1]). -/
theorem arr1 : (dat1 (F := Ideal) V c).arrAt 2 cfg1.N = Cert.Gcn.scale256 (V c main_v39) (V c main_v40) :=
  (dat1 (F := Ideal) V c).arrAt_eq_of_cover 2 (Cert.Gcn.scale256 (V c main_v39) (V c main_v40))
    (fun t _ => flushed256 V c t) cover256

/-! ## The second scaling launch: 128 columns -/

/-- The body's arithmetic at a block entry y: the entry of the row block times the coefficient of y's row. -/
theorem pay128 (x0 : Vec Ideal S6800x128 .f32) (x1 : Vec Ideal S6800x1 .f32) (y : S6800x128.Idx) (z : S6800x1.Idx)
    (hz : (z 0).val = (y 0).val) : k4_pay1 x0 x1 y = x0 y * x1 z := by
  unfold k4_pay1
  simp only [shapeCast_self]
  rw [mulf_apply, broadcastTo_col_apply x1 _ y z hz]

/-- The stage function at an array entry i: g's entry times the coefficient of i's row. -/
theorem scale128_apply (g : FVec Ideal S850000x128 .f32) (n : FVec Ideal S850000x1 .f32) (i : S850000x128.Idx)
    (k : S850000x1.Idx) (hk : (k 0).val = (i 0).val) : Cert.Gcn.scale128 g n i = g i * n k := by
  unfold Cert.Gcn.scale128
  rw [mulf_apply, broadcastInDim_col_apply _ n i k hk]

/-- The three windows of the second scaling launch move together: at grid point t each takes block row t and the
    one block column 0 of its array (decided over the 125 points). -/
theorem block_index128 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Entry y of the block of g at point t is g's entry at row 6800·t + y₀ and column y₁. -/
theorem rows128 (t : Fin cfg4.N) (y : S6800x128.Idx) (i : S850000x128.Idx)
    (h0 : (i 0).val = t.val * 6800 + (y 0).val) (h1 : (i 1).val = (y 1).val) :
    iblk4 (F := Ideal) V c 0 t y = V c main_v79 i := by
  obtain ⟨e0, e1, -, -, -, -⟩ := block_index128 t
  show V c main_v79 (((cfg4.win 0).blk t).view.emb y) = V c main_v79 i
  refine congrArg _ (funext fun a => Fin.ext ?_)
  match a with
  | ⟨0, _⟩ => show win4_0.index t (0 : Fin 2) * 6800 + 1 * (y 0).val = (i 0).val; omega
  | ⟨1, _⟩ => show win4_0.index t (1 : Fin 2) * 128 + 1 * (y 1).val = (i 1).val; omega

/-- Entry z of the block of the coefficient column at point t is the coefficient of row 6800·t + z₀. -/
theorem coeffs128 (t : Fin cfg4.N) (z : S6800x1.Idx) (k : S850000x1.Idx)
    (h0 : (k 0).val = t.val * 6800 + (z 0).val) :
    iblk4 (F := Ideal) V c 1 t z = V c main_v80 k := by
  obtain ⟨-, -, e2, e3, -, -⟩ := block_index128 t
  show V c main_v80 (((cfg4.win 1).blk t).view.emb z) = V c main_v80 k
  refine congrArg _ (funext fun a => Fin.ext ?_)
  match a with
  | ⟨0, _⟩ => show win4_1.index t (0 : Fin 2) * 6800 + 1 * (z 0).val = (k 0).val; omega
  | ⟨1, _⟩ =>
    show win4_1.index t (1 : Fin 2) * 1 + 1 * (z 1).val = (k 1).val
    have := idx2_lt1 z; have := idx2_lt1 k; omega

/-- What point t writes back is block t of the scaled array: at the block entry j the body multiplies g's entry
    at row 6800·t + j₀ by that row's coefficient, and that row is where the output block puts j. -/
theorem flushed128 (t : Fin cfg4.N) :
    (dat4 (F := Ideal) V c).flushed 2 t
      = ((cfg4.win 2).blk t).view.read (Elt Ideal) (Cert.Gcn.scale128 (V c main_v79) (V c main_v80)) := by
  show (cfg4.win 2).cut (grid4.coords t) ((dat4 V c).after 2 t) = _
  rw [after4_2]
  unfold out4_2
  rw [View.canon_unit_zero zero_offsets]
  simp only [View.ld_unit_zero (S := S6800x128) zero_offsets, View.ld_unit_zero (S := S6800x1) zero_offsets]
  obtain ⟨-, -, -, -, e4, e5⟩ := block_index128 t
  funext j
  have hj0 : (j 0).val < 6800 := (j 0).isLt
  have hj1 : (j 1).val < 128 := (j 1).isLt
  have ht : t.val < 125 := lt_of_lt_of_eq t.isLt N_4
  have hrow : t.val * 6800 + (j 0).val < 850000 := by omega
  -- the entry of the output array under j, its row, and the entry of the coefficient block beside j
  have hr0 : ((((cfg4.win 2).blk t).view.emb j) 0).val = t.val * 6800 + (j 0).val := by
    show win4_2.index t (0 : Fin 2) * 6800 + 1 * (j 0).val = _; omega
  have hr1 : ((((cfg4.win 2).blk t).view.emb j) 1).val = (j 1).val := by
    show win4_2.index t (1 : Fin 2) * 128 + 1 * (j 1).val = _; omega
  refine (pay128 (iblk4 V c 0 t) (iblk4 V c 1 t) ((cfg4.win 2).xinj (grid4.coords t) j)
    (ix2 (⟨(j 0).val, hj0⟩ : Fin 6800) (0 : Fin 1)) rfl).trans ?_
  refine Eq.trans ?_ (scale128_apply (V c main_v79) (V c main_v80) (((cfg4.win 2).blk t).view.emb j)
    (ix2 (⟨t.val * 6800 + (j 0).val, hrow⟩ : Fin 850000) (0 : Fin 1)) hr0.symm).symm
  rw [rows128 V c t ((cfg4.win 2).xinj (grid4.coords t) j) (((cfg4.win 2).blk t).view.emb j) hr0 hr1,
    coeffs128 V c t (ix2 (⟨(j 0).val, hj0⟩ : Fin 6800) (0 : Fin 1)) (ix2 (⟨t.val * 6800 + (j 0).val, hrow⟩ : Fin 850000) (0 : Fin 1)) rfl]

/-- An entry of the array is in point t's block iff each coordinate is in the block's range on its axis. -/
theorem mem_block128 (t : Fin cfg4.N) (i : S850000x128.Idx) :
    i ∈ ((cfg4.win 2).blk t).view.set ↔ ∀ a : Fin 2, win4_2.index t a * S6800x128.size a ≤ (i a).val
      ∧ (i a).val < win4_2.index t a * S6800x128.size a + S6800x128.size a := by
  show i ∈ ((View.whole main_v81).slice (win4_2.rect t)).set ↔ _
  rw [View.set_slice_whole, Rect.mem_set_unit]
  exact Iff.rfl

/-- The blocks tile the rows: entry i lies in the block of the point i₀ / 6800. -/
theorem cover128 (i : S850000x128.Idx) :
    ∃ t : Fin cfg4.N, (cfg4.win 2).flush t = true ∧ i ∈ ((cfg4.win 2).blk t).view.set := by
  have hi0 : (i 0).val < 850000 := (i 0).isLt
  have hi1 : (i 1).val < 128 := (i 1).isLt
  have hN : cfg4.N = 125 := N_4
  have hlt : (i 0).val / 6800 < cfg4.N := by rw [hN]; omega
  obtain ⟨-, -, -, -, e4, e5⟩ := block_index128 ⟨(i 0).val / 6800, hlt⟩
  refine ⟨⟨(i 0).val / 6800, hlt⟩, flush4_2 _, ?_⟩
  rw [mem_block128]
  intro a
  match a with
  | ⟨0, _⟩ =>
    show win4_2.index ⟨(i 0).val / 6800, hlt⟩ (0 : Fin 2) * 6800 ≤ (i 0).val
      ∧ (i 0).val < win4_2.index ⟨(i 0).val / 6800, hlt⟩ (0 : Fin 2) * 6800 + 6800
    rw [e4]; show (i 0).val / 6800 * 6800 ≤ (i 0).val ∧ (i 0).val < (i 0).val / 6800 * 6800 + 6800; omega
  | ⟨1, _⟩ =>
    show win4_2.index ⟨(i 0).val / 6800, hlt⟩ (1 : Fin 2) * 128 ≤ (i 1).val
      ∧ (i 1).val < win4_2.index ⟨(i 0).val / 6800, hlt⟩ (1 : Fin 2) * 128 + 128
    rw [e5]; omega

/-- After the second scaling launch its output array is g[e, j] · n[e, 0] ([850000,128] by [850000,1]). -/
theorem arr4 : (dat4 (F := Ideal) V c).arrAt 2 cfg4.N = Cert.Gcn.scale128 (V c main_v79) (V c main_v80) :=
  (dat4 (F := Ideal) V c).arrAt_eq_of_cover 2 (Cert.Gcn.scale128 (V c main_v79) (V c main_v80))
    (fun t _ => flushed128 V c t) cover128

end Cert.Gcn.Region

end
-- ==== Proof.RegionBias.lean ====
import proofs.«141999_j36636071035639_1_alg».proof.Proof.Gen.KernelIdeal.Frame
import proofs.«141999_j36636071035639_1_alg».proof.Proof.Stage
import Idealize.ShloMosaic.PureOps.Ideal.Laws
import Idealize.ShloMosaic.Lib.ValueIdx
import Idealize.ShloMosaic.Lib.Pipeline.Value
import Idealize.ShloMosaic.Lib.ValueLayout

/-!
  The two bias launches over the extended reals. Each grid point takes 5000 rows of the aggregated array and
  the whole bias row, adds the bias to every row and (first launch only) takes the positive part; the ten blocks
  tile the 50000 rows, so the output array is max(a[i, j] + b[0, j], 0), respectively a[i, j] + b[0, j].
-/

set_option maxRecDepth 16384

noncomputable section

namespace Cert.Gcn.Region

open Idealize.ShloMosaic Idealize.ShloMosaic.TcCoe Idealize.SL.Sem Idealize.ShloMosaic.ValueIdx
open Cert.KernelIdeal Cert.KernelIdeal.Gen

namespace Bias

/-- A body reads and writes each of its buffers whole: both offsets are zero. -/
theorem offsets_zero : (![0, 0] : Fin 2 → Nat) = fun _ => 0 := funext fun a => by fin_cases a <;> rfl

/-! ## The first bias launch: max(a[i, j] + b[0, j], 0) at 256 columns -/

/-- The entry (0, j) of the bias row that sits over column j of an entry of a 5000-row block. -/
abbrev biasOver256 (y : S5000x256.Idx) : S1x256.Idx := fun a => match a with
  | ⟨0, _⟩ => ⟨0, Nat.one_pos⟩
  | ⟨1, _⟩ => ⟨(y 1).val, (y 1).isLt⟩

/-- The entry (0, j) of the bias row that sits over column j of an entry of the whole array. -/
abbrev biasOverAll256 (i : S50000x256.Idx) : S1x256.Idx := fun a => match a with
  | ⟨0, _⟩ => ⟨0, Nat.one_pos⟩
  | ⟨1, _⟩ => ⟨(i 1).val, (i 1).isLt⟩

/-- What the body computes at entry (p, q) of its block: max(x0[p, q] + x1[0, q], 0). -/
theorem body256_entry (x0 : Vec Ideal S5000x256 .f32) (x1 : Vec Ideal S1x256 .f32) (y : S5000x256.Idx) :
    k2_pay1 x0 x1 y = max (x0 y + x1 (biasOver256 y)) (Ideal.ofBits .f32 0x00000000#32) := by
  unfold k2_pay1
  simp only [shapeCast_self]
  rw [maximumf_apply, addf_apply, broadcast_apply]
  rw [broadcastTo_apply x1 broadcasts_S1x256_S5000x256 y (biasOver256 y) (fun a => match a with
    | ⟨0, _⟩ => by show 0 = if (1 : Nat) = 1 then 0 else _; rw [if_pos rfl]
    | ⟨1, _⟩ => by show (y 1).val = if (256 : Nat) = 1 then 0 else (y 1).val; rw [if_neg (by decide)])]
  rfl

/-- The host's spelling of the same function at entry (i, j) of the whole array. -/
theorem biasRelu256_entry (a : FVec Ideal S50000x256 .f32) (b : FVec Ideal S1x256 .f32) (i : S50000x256.Idx) :
    Cert.Gcn.biasRelu256 a b i = max (a i + b (biasOverAll256 i)) (Ideal.ofBits .f32 0x00000000#32) := by
  unfold Cert.Gcn.biasRelu256
  rw [maximumf_apply, addf_apply]
  rw [broadcastInDim_apply _ Cert.ReferenceIdeal.Facts₀.bcast_S1x256_S50000x256_0_1 b i (biasOverAll256 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  rw [broadcastInDim_apply _ Cert.ReferenceIdeal.Facts₀.bcast_S_S50000x256 (constant (F := Ideal) Cert.ReferenceIdeal.S_ .f32 0x00000000#32) i (fun a => a.elim0) (fun a => a.elim0)]
  rfl

/-! ## The second bias launch: a[i, j] + b[0, j] at 128 columns -/

/-- The entry (0, j) of the bias row that sits over column j of an entry of a 5000-row block. -/
abbrev biasOver128 (y : S5000x128.Idx) : S1x128.Idx := fun a => match a with
  | ⟨0, _⟩ => ⟨0, Nat.one_pos⟩
  | ⟨1, _⟩ => ⟨(y 1).val, (y 1).isLt⟩

/-- The entry (0, j) of the bias row that sits over column j of an entry of the whole array. -/
abbrev biasOverAll128 (i : S50000x128.Idx) : S1x128.Idx := fun a => match a with
  | ⟨0, _⟩ => ⟨0, Nat.one_pos⟩
  | ⟨1, _⟩ => ⟨(i 1).val, (i 1).isLt⟩

/-- What the body computes at entry (p, q) of its block: x0[p, q] + x1[0, q]. -/
theorem body128_entry (x0 : Vec Ideal S5000x128 .f32) (x1 : Vec Ideal S1x128 .f32) (y : S5000x128.Idx) :
    k5_pay1 x0 x1 y = x0 y + x1 (biasOver128 y) := by
  unfold k5_pay1
  simp only [shapeCast_self]
  rw [addf_apply]
  rw [broadcastTo_apply x1 broadcasts_S1x128_S5000x128 y (biasOver128 y) (fun a => match a with
    | ⟨0, _⟩ => by show 0 = if (1 : Nat) = 1 then 0 else _; rw [if_pos rfl]
    | ⟨1, _⟩ => by show (y 1).val = if (128 : Nat) = 1 then 0 else (y 1).val; rw [if_neg (by decide)])]

/-- The host's spelling of the same function at entry (i, j) of the whole array. -/
theorem bias128_entry (a : FVec Ideal S50000x128 .f32) (b : FVec Ideal S1x128 .f32) (i : S50000x128.Idx) :
    Cert.Gcn.bias128 a b i = a i + b (biasOverAll128 i) := by
  unfold Cert.Gcn.bias128
  rw [addf_apply]
  rw [broadcastInDim_apply _ Cert.ReferenceIdeal.Facts₀.bcast_S1x128_S50000x128_0_1 b i (biasOverAll128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]

end Bias

variable (V : (c : Dev nD) → (b : Ref sig .tc) → Buf (Elt Ideal) ((c : Thread nD τ).loc b)) (c : Dev nD)

namespace Bias

/-! ## The first launch's blocks, and its output array -/

/-- The index maps of the first bias launch, decided over its ten points: the aggregated array and the
    output are cut at block row t, block column 0; the bias row is taken whole at every point. -/
theorem blockIndex256 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the block of the aggregated array taken at point t is entry (5000 t + p, q) of the array. -/
theorem rows256_entry (t : Fin cfg2.N) (y : S5000x256.Idx) (i : S50000x256.Idx)
    (h0 : (i 0).val = 5000 * t.val + (y 0).val) (h1 : (i 1).val = (y 1).val) :
    (iblk2 (F := Ideal) V c 0 t : Vec Ideal S5000x256 .f32) y = (V c main_v44 : S50000x256.Idx → Elt Ideal .f32) i := by
  obtain ⟨e0, e1, -, -, -, -⟩ := blockIndex256 t
  unfold iblk2
  rw [View.read_apply]
  show V c main_v44 (((cfg2.win 0).blk t).view.emb y) = V c main_v44 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 256 + 1 * (y 1).val = (i 1).val; omega

/-- The block of the bias row taken at any point is the row: entry (0, q) is entry (0, q). -/
theorem bias256_entry (t : Fin cfg2.N) (y : S1x256.Idx) :
    (iblk2 (F := Ideal) V c 1 t : Vec Ideal S1x256 .f32) y = (V c main_v45 : S1x256.Idx → Elt Ideal .f32) y := by
  obtain ⟨-, -, e2, e3, -, -⟩ := blockIndex256 t
  unfold iblk2
  rw [View.read_apply]
  show V c main_v45 (((cfg2.win 1).blk t).view.emb y) = V c main_v45 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 256 + 1 * (y 1).val = (y 1).val; omega

/-- What point t writes back is block t of max(a[i, j] + b[0, j], 0) of the two arrays the launch finds. -/
theorem flushed256 (t : Fin cfg2.N) :
    (dat2 (F := Ideal) V c).flushed 2 t
      = ((cfg2.win 2).blk t).view.read (Elt Ideal) (Cert.Gcn.biasRelu256 (V c main_v44) (V c main_v45)) := by
  show (cfg2.win 2).cut (grid2.coords t) ((dat2 (F := Ideal) V c).after 2 t) = _
  rw [after2_2]
  unfold out2_2
  rw [View.canon_unit_zero offsets_zero]
  simp only [View.ld_unit_zero (S := S5000x256) offsets_zero, View.ld_unit_zero (S := S1x256) offsets_zero]
  obtain ⟨-, -, -, -, e4, e5⟩ := blockIndex256 t
  funext y
  have h0 : ((((cfg2.win 2).blk t).view.emb y) 0).val = 5000 * t.val + (y 0).val := by
    show win2_2.index t (0 : Fin 2) * 5000 + 1 * (y 0).val = _; omega
  have h1 : ((((cfg2.win 2).blk t).view.emb y) 1).val = (y 1).val := by
    show win2_2.index t (1 : Fin 2) * 256 + 1 * (y 1).val = _; omega
  have hb : biasOver256 ((cfg2.win 2).xinj (grid2.coords t) y) = biasOverAll256 (((cfg2.win 2).blk t).view.emb y) :=
    funext fun a => Fin.ext (match a with | ⟨0, _⟩ => rfl | ⟨1, _⟩ => h1.symm)
  refine (body256_entry _ _ ((cfg2.win 2).xinj (grid2.coords t) y)).trans ?_
  show _ = Cert.Gcn.biasRelu256 (V c main_v44) (V c main_v45) (((cfg2.win 2).blk t).view.emb y)
  rw [biasRelu256_entry, rows256_entry V c t _ _ h0 h1, bias256_entry V c t, hb]

/-- An entry of the array is in the block point t writes back iff each coordinate is in the block's range. -/
theorem mem_block256 (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v46).slice (win2_2.rect t)).set ↔ _
  rw [View.set_slice_whole, Rect.mem_set_unit]
  exact Iff.rfl

/-- The ten blocks of 5000 rows tile the 50000 rows: row r is in the block of point r / 5000. -/
theorem tiled256 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hlt : (i 0).val / 5000 < cfg2.N := by rw [show cfg2.N = 10 from N_2]; omega
  refine ⟨⟨(i 0).val / 5000, hlt⟩, flush2_2 _, ?_⟩
  obtain ⟨-, -, -, -, e4, e5⟩ := blockIndex256 ⟨(i 0).val / 5000, hlt⟩
  have e4' : win2_2.index ⟨(i 0).val / 5000, hlt⟩ (0 : Fin 2) = (i 0).val / 5000 := e4
  rw [mem_block256]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    omega
  | ⟨1, _⟩ =>
    show win2_2.index ⟨(i 0).val / 5000, hlt⟩ (1 : Fin 2) * 256 ≤ (i 1).val
      ∧ (i 1).val < win2_2.index ⟨(i 0).val / 5000, hlt⟩ (1 : Fin 2) * 256 + 256
    omega

end Bias

/-- After the first bias launch its output array is max(a[i, j] + b[0, j], 0) ([50000,256] and [1,256]). -/
theorem arr2 : (dat2 (F := Ideal) V c).arrAt 2 cfg2.N = Cert.Gcn.biasRelu256 (V c main_v44) (V c main_v45) := by
  exact (dat2 (F := Ideal) V c).arrAt_eq_of_cover 2 (Cert.Gcn.biasRelu256 (V c main_v44) (V c main_v45))
    (fun t _ => Bias.flushed256 V c t) Bias.tiled256

namespace Bias

/-! ## The second launch's blocks, and its output array -/

/-- The index maps of the second bias launch, decided over its ten points: the aggregated array and the
    output are cut at block row t, block column 0; the bias row is taken whole at every point. -/
theorem blockIndex128 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the block of the aggregated array taken at point t is entry (5000 t + p, q) of the array. -/
theorem rows128_entry (t : Fin cfg5.N) (y : S5000x128.Idx) (i : S50000x128.Idx)
    (h0 : (i 0).val = 5000 * t.val + (y 0).val) (h1 : (i 1).val = (y 1).val) :
    (iblk5 (F := Ideal) V c 0 t : Vec Ideal S5000x128 .f32) y = (V c main_v84 : S50000x128.Idx → Elt Ideal .f32) i := by
  obtain ⟨e0, e1, -, -, -, -⟩ := blockIndex128 t
  unfold iblk5
  rw [View.read_apply]
  show V c main_v84 (((cfg5.win 0).blk t).view.emb y) = V c main_v84 i
  refine congrArg _ (funext fun a => Fin.ext ?_)
  match a with
  | ⟨0, _⟩ => show win5_0.index t (0 : Fin 2) * 5000 + 1 * (y 0).val = (i 0).val; omega
  | ⟨1, _⟩ => show win5_0.index t (1 : Fin 2) * 128 + 1 * (y 1).val = (i 1).val; omega

/-- The block of the bias row taken at any point is the row: entry (0, q) is entry (0, q). -/
theorem bias128_row_entry (t : Fin cfg5.N) (y : S1x128.Idx) :
    (iblk5 (F := Ideal) V c 1 t : Vec Ideal S1x128 .f32) y = (V c main_v85 : S1x128.Idx → Elt Ideal .f32) y := by
  obtain ⟨-, -, e2, e3, -, -⟩ := blockIndex128 t
  unfold iblk5
  rw [View.read_apply]
  show V c main_v85 (((cfg5.win 1).blk t).view.emb y) = V c main_v85 y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- What point t writes back is block t of a[i, j] + b[0, j] of the two arrays the launch finds. -/
theorem flushed128 (t : Fin cfg5.N) :
    (dat5 (F := Ideal) V c).flushed 2 t
      = ((cfg5.win 2).blk t).view.read (Elt Ideal) (Cert.Gcn.bias128 (V c main_v84) (V c main_v85)) := by
  show (cfg5.win 2).cut (grid5.coords t) ((dat5 (F := Ideal) V c).after 2 t) = _
  rw [after5_2]
  unfold out5_2
  rw [View.canon_unit_zero offsets_zero]
  simp only [View.ld_unit_zero (S := S5000x128) offsets_zero, View.ld_unit_zero (S := S1x128) offsets_zero]
  obtain ⟨-, -, -, -, e4, e5⟩ := blockIndex128 t
  funext y
  have h0 : ((((cfg5.win 2).blk t).view.emb y) 0).val = 5000 * t.val + (y 0).val := by
    show win5_2.index t (0 : Fin 2) * 5000 + 1 * (y 0).val = _; omega
  have h1 : ((((cfg5.win 2).blk t).view.emb y) 1).val = (y 1).val := by
    show win5_2.index t (1 : Fin 2) * 128 + 1 * (y 1).val = _; omega
  have hb : biasOver128 ((cfg5.win 2).xinj (grid5.coords t) y) = biasOverAll128 (((cfg5.win 2).blk t).view.emb y) :=
    funext fun a => Fin.ext (match a with | ⟨0, _⟩ => rfl | ⟨1, _⟩ => h1.symm)
  refine (body128_entry _ _ ((cfg5.win 2).xinj (grid5.coords t) y)).trans ?_
  show _ = Cert.Gcn.bias128 (V c main_v84) (V c main_v85) (((cfg5.win 2).blk t).view.emb y)
  rw [bias128_entry, rows128_entry V c t _ _ h0 h1, bias128_row_entry V c t, hb]

/-- An entry of the array is in the block point t writes back iff each coordinate is in the block's range. -/
theorem mem_block128 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v86).slice (win5_2.rect t)).set ↔ _
  rw [View.set_slice_whole, Rect.mem_set_unit]
  exact Iff.rfl

/-- The ten blocks of 5000 rows tile the 50000 rows: row r is in the block of point r / 5000. -/
theorem tiled128 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hlt : (i 0).val / 5000 < cfg5.N := by rw [show cfg5.N = 10 from N_5]; omega
  refine ⟨⟨(i 0).val / 5000, hlt⟩, flush5_2 _, ?_⟩
  obtain ⟨-, -, -, -, e4, e5⟩ := blockIndex128 ⟨(i 0).val / 5000, hlt⟩
  have e4' : win5_2.index ⟨(i 0).val / 5000, hlt⟩ (0 : Fin 2) = (i 0).val / 5000 := e4
  rw [mem_block128]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    omega
  | ⟨1, _⟩ =>
    show win5_2.index ⟨(i 0).val / 5000, hlt⟩ (1 : Fin 2) * 128 ≤ (i 1).val
      ∧ (i 1).val < win5_2.index ⟨(i 0).val / 5000, hlt⟩ (1 : Fin 2) * 128 + 128
    omega

end Bias

/-- After the second bias launch its output array is a[i, j] + b[0, j] ([50000,128] and [1,128]). -/
theorem arr5 : (dat5 (F := Ideal) V c).arrAt 2 cfg5.N = Cert.Gcn.bias128 (V c main_v84) (V c main_v85) := by
  exact (dat5 (F := Ideal) V c).arrAt_eq_of_cover 2 (Cert.Gcn.bias128 (V c main_v84) (V c main_v85))
    (fun t _ => Bias.flushed128 V c t) Bias.tiled128
end Cert.Gcn.Region

end
-- ==== Proof.Layout.lean ====
import proofs.«141999_j36636071035639_1_alg».proof.KernelIdeal
import proofs.«141999_j36636071035639_1_alg».proof.ReferenceIdeal
import proofs.«141999_j36636071035639_1_alg».proof.Proof.Gen.KernelIdeal
import proofs.«141999_j36636071035639_1_alg».proof.Proof.Gen.ReferenceIdeal
import Idealize.ShloMosaic.Lib.Pipeline.Value

/-!
  Two ways of writing one array. A vector of length n read as a column [n, 1], and a vector of length c read as
  a row [1, c], hold the same entries whether the new unit axis comes from a reshape (row-major order is kept:
  position e of the vector is position e · 1 + 0 of the column, position j is 0 · c + j of the row) or from a
  broadcast along the old axis (entry (e, 0) is entry e; entry (0, j) is entry j).
-/

noncomputable section

namespace Cert.Gcn.Layout

open Idealize.ShloMosaic

variable {α : Type}

/-- The column [850000, 1] of a vector of length 850000: reshaped, or broadcast along axis 0. -/
theorem col_eq (n : Cert.KernelIdeal.S850000.Idx → α) :
    shapeCast Cert.KernelIdeal.S850000x1 n Cert.KernelIdeal.Facts₀.shapeCasts_S850000_S850000x1
      = broadcastInDim Cert.ReferenceIdeal.S850000x1 ![0] Cert.ReferenceIdeal.Facts₀.bcast_S850000_S850000x1_0 n := by
  funext j
  have h1 : (j 1).val = 0 := by have h : (j 1).val < 1 := (j 1).isLt; omega
  let k : Cert.KernelIdeal.S850000.Idx := fun a => match a with | ⟨0, _⟩ => ⟨(j 0).val, (j 0).isLt⟩
  refine (shapeCast_apply n _ j k ?_).trans (broadcastInDim_apply _ Cert.ReferenceIdeal.Facts₀.bcast_S850000_S850000x1_0 n j k ?_).symm
  · rw [Shape.rowMajor_val_one, Shape.rowMajor_val_two]
    show (j 0).val = (j 0).val * 1 + (j 1).val
    omega
  · intro a
    match a with
    | ⟨0, _⟩ => show (j 0).val = if (850000 : Nat) = 1 then 0 else (j 0).val; rw [if_neg (by decide)]

/-- The row [1, 256] of a vector of length 256: reshaped, or broadcast along axis 1. -/
theorem row256_eq (b : Cert.KernelIdeal.S256.Idx → α) :
    shapeCast Cert.KernelIdeal.S1x256 b Cert.KernelIdeal.Facts₀.shapeCasts_S256_S1x256
      = broadcastInDim Cert.ReferenceIdeal.S1x256 ![1] Cert.ReferenceIdeal.Facts₀.bcast_S256_S1x256_1 b := by
  funext j
  have h0 : (j 0).val = 0 := by have h : (j 0).val < 1 := (j 0).isLt; omega
  let k : Cert.KernelIdeal.S256.Idx := fun a => match a with | ⟨0, _⟩ => ⟨(j 1).val, (j 1).isLt⟩
  refine (shapeCast_apply b _ j k ?_).trans (broadcastInDim_apply _ Cert.ReferenceIdeal.Facts₀.bcast_S256_S1x256_1 b j k ?_).symm
  · rw [Shape.rowMajor_val_one, Shape.rowMajor_val_two]
    show (j 1).val = (j 0).val * 256 + (j 1).val
    omega
  · intro a
    match a with
    | ⟨0, _⟩ => show (j 1).val = if (256 : Nat) = 1 then 0 else (j 1).val; rw [if_neg (by decide)]

/-- The row [1, 128] of a vector of length 128: reshaped, or broadcast along axis 1. -/
theorem row128_eq (b : Cert.KernelIdeal.S128.Idx → α) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b := by
  funext j
  have h0 : (j 0).val = 0 := by have h : (j 0).val < 1 := (j 0).isLt; omega
  let k : Cert.KernelIdeal.S128.Idx := fun a => match a with | ⟨0, _⟩ => ⟨(j 1).val, (j 1).isLt⟩
  refine (shapeCast_apply b _ j k ?_).trans (broadcastInDim_apply _ Cert.ReferenceIdeal.Facts₀.bcast_S128_S1x128_1 b j k ?_).symm
  · rw [Shape.rowMajor_val_one, Shape.rowMajor_val_two]
    show (j 1).val = (j 0).val * 128 + (j 1).val
    omega
  · intro a
    match a with
    | ⟨0, _⟩ => show (j 1).val = if (128 : Nat) = 1 then 0 else (j 1).val; rw [if_neg (by decide)]

end Cert.Gcn.Layout

end
-- ==== Proof.ChainArgs.lean ====
import proofs.«141999_j36636071035639_1_alg».proof.Proof.Gen.KernelIdeal.Frame
import proofs.«141999_j36636071035639_1_alg».proof.Proof.RefReadP
import Idealize.ShloMosaic.PureOps.Ideal

/-! The launch contents of the program's six argument arrays, on one device (node features, edge list, and the
    two layers' weights and biases), and what the first layer hands to the second. -/

noncomputable section

namespace Cert.Gcn.Chain

open Idealize.ShloMosaic Idealize.ShloMosaic.TcCoe Idealize.SL.Sem
open Cert.KernelIdeal

variable (m : (ℓ : Loc nD τ sig) → Buf (Elt Ideal) ℓ) (c : Dev nD)

/-- Node features x : [50000, 256]. -/
abbrev a0 := m ((c.tc : Thread nD τ).loc main_arg0)
/-- Edge list : [2, 800000]. -/
abbrev a1 := m ((c.tc : Thread nD τ).loc main_arg1)
/-- First layer's weights : [256, 256]. -/
abbrev a2 := m ((c.tc : Thread nD τ).loc main_arg2)
/-- First layer's bias : [256]. -/
abbrev a3 := m ((c.tc : Thread nD τ).loc main_arg3)
/-- Second layer's weights : [256, 128]. -/
abbrev a4 := m ((c.tc : Thread nD τ).loc main_arg4)
/-- Second layer's bias : [128]. -/
abbrev a5 := m ((c.tc : Thread nD τ).loc main_arg5)

/-- What the first layer leaves when the fourth launch (the second product) is entered: its output with the
    positive part taken, the two edge lists with the self-loops appended, and the second layer's weights and
    bias, each as the reference's stage of the arguments. -/
structure AfterLayer1 (ρ : Dev nD → PrngReg) : Prop where
  h46 : Gen.W8 m ρ c (Proc.devRef .tc main_v46)
    = Cert.ReferenceIdeal.ReadP.val_main_v49 (F := Ideal) (a0 m c) (a1 m c) (a2 m c) (a3 m c)
  h3 : Gen.W8 m ρ c (Proc.devRef .tc main_v3) = Cert.ReferenceIdeal.ReadP.val_main_v3 (F := Ideal) (a1 m c)
  h6 : Gen.W8 m ρ c (Proc.devRef .tc main_v6) = Cert.ReferenceIdeal.ReadP.val_main_v6 (F := Ideal) (a1 m c)
  h4 : Gen.W8 m ρ c (Proc.devRef .tc main_arg4) = a4 m c
  h5 : Gen.W8 m ρ c (Proc.devRef .tc main_arg5) = a5 m c

end Cert.Gcn.Chain

end
-- ==== Proof.ChainL1.lean ====
import proofs.«141999_j36636071035639_1_alg».proof.Proof.Gen.KernelIdeal.Frame
import proofs.«141999_j36636071035639_1_alg».proof.Proof.RefReadP
import proofs.«141999_j36636071035639_1_alg».proof.Proof.RegionMatmul
import proofs.«141999_j36636071035639_1_alg».proof.Proof.RegionScale
import proofs.«141999_j36636071035639_1_alg».proof.Proof.RegionBias
import proofs.«141999_j36636071035639_1_alg».proof.Proof.Layout
import proofs.«141999_j36636071035639_1_alg».proof.Proof.ChainArgs
import Idealize.ShloMosaic.Lib.StableHlo.Run
import Idealize.ShloMosaic.Lib.Pipeline.Value

/-!
  The first layer, read off the run's boundary contents. At each boundary between the program's segments the
  buffers still to be read hold the same arrays as the reference's stages: the edge lists with the self-loops
  appended (row and column), the first product x · W1, its rows gathered along the edges and scaled by the
  symmetric normalisation, their sum over incoming edges, and the bias with the positive part. A host stretch
  computes the same operations as the reference, so its results are the reference's stages of equal operands;
  a launch's output array is the stage function of its input arrays; every other buffer is kept.
-/

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the first launch: the edge lists with the self-loops appended -/

section Stretch0
variable {F : FTy → Type} [FloatOps F] (X : Valuation τ sig (Elt F))

theorem s0_v3 : StableHlo.after (hostOps0 (F := F)) X (Proc.devRef .tc main_v3) = Cert.ReferenceIdeal.ReadP.val_main_v3 (F := F) (X (Proc.devRef .tc main_arg1)) := by
  after_results; rfl
theorem s0_v6 : StableHlo.after (hostOps0 (F := F)) X (Proc.devRef .tc main_v6) = Cert.ReferenceIdeal.ReadP.val_main_v6 (F := F) (X (Proc.devRef .tc main_arg1)) := by
  after_results; rfl
theorem s0_arg0 : StableHlo.after (hostOps0 (F := F)) X (Proc.devRef .tc main_arg0) = X (Proc.devRef .tc main_arg0) := by after_results
theorem s0_arg2 : StableHlo.after (hostOps0 (F := F)) X (Proc.devRef .tc main_arg2) = X (Proc.devRef .tc main_arg2) := by after_results
theorem s0_arg3 : StableHlo.after (hostOps0 (F := F)) X (Proc.devRef .tc main_arg3) = X (Proc.devRef .tc main_arg3) := by after_results
theorem s0_arg4 : StableHlo.after (hostOps0 (F := F)) X (Proc.devRef .tc main_arg4) = X (Proc.devRef .tc main_arg4) := by after_results
theorem s0_arg5 : StableHlo.after (hostOps0 (F := F)) X (Proc.devRef .tc main_arg5) = X (Proc.devRef .tc main_arg5) := by after_results
end Stretch0

theorem b1_v3 : W1 m ρ c (Proc.devRef .tc main_v3) = Cert.ReferenceIdeal.ReadP.val_main_v3 (F := Ideal) (a1 m c) := s0_v3 _
theorem b1_v6 : W1 m ρ c (Proc.devRef .tc main_v6) = Cert.ReferenceIdeal.ReadP.val_main_v6 (F := Ideal) (a1 m c) := s0_v6 _
theorem b1_arg0 : W1 m ρ c (Proc.devRef .tc main_arg0) = a0 m c := s0_arg0 _
theorem b1_arg2 : W1 m ρ c (Proc.devRef .tc main_arg2) = a2 m c := s0_arg2 _
theorem b1_arg3 : W1 m ρ c (Proc.devRef .tc main_arg3) = a3 m c := s0_arg3 _
theorem b1_arg4 : W1 m ρ c (Proc.devRef .tc main_arg4) = a4 m c := s0_arg4 _
theorem b1_arg5 : W1 m ρ c (Proc.devRef .tc main_arg5) = a5 m c := s0_arg5 _

/-! ## After the first launch: the product x · W1 -/

theorem b2_v7 : W2 m ρ c (Proc.devRef .tc main_v7) = Cert.ReferenceIdeal.ReadP.val_main_v7 (F := Ideal) (a0 m c) (a2 m c) := by
  have e0 : V1 m ρ c main_arg0 = a0 m c := b1_arg0 m ρ c
  have e2 : V1 m ρ c main_arg2 = a2 m c := b1_arg2 m ρ c
  refine (W2_arr m ρ c 2).trans ((Cert.Gcn.Region.arr0 (V1 m ρ) c).trans ?_)
  rw [e0, e2]; rfl
theorem b2_v3 : W2 m ρ c (Proc.devRef .tc main_v3) = Cert.ReferenceIdeal.ReadP.val_main_v3 (F := Ideal) (a1 m c) := (W2_of_ne m ρ c main_v3 (by decide)).trans (b1_v3 m ρ c)
theorem b2_v6 : W2 m ρ c (Proc.devRef .tc main_v6) = Cert.ReferenceIdeal.ReadP.val_main_v6 (F := Ideal) (a1 m c) := (W2_of_ne m ρ c main_v6 (by decide)).trans (b1_v6 m ρ c)
theorem b2_arg3 : W2 m ρ c (Proc.devRef .tc main_arg3) = a3 m c := (W2_of_ne m ρ c main_arg3 (by decide)).trans (b1_arg3 m ρ c)
theorem b2_arg4 : W2 m ρ c (Proc.devRef .tc main_arg4) = a4 m c := (W2_of_ne m ρ c main_arg4 (by decide)).trans (b1_arg4 m ρ c)
theorem b2_arg5 : W2 m ρ c (Proc.devRef .tc main_arg5) = a5 m c := (W2_of_ne m ρ c main_arg5 (by decide)).trans (b1_arg5 m ρ c)

/-! ## Before the second launch: the gathered rows and the normalisation column -/

section Stretch1
variable {F : FTy → Type} [FloatOps F] (X : Valuation τ sig (Elt F))

/-- The three stretches between the first and the second launch, run one after the other. -/
abbrev after1 : Valuation τ sig (Elt F) :=
  StableHlo.after (hostOps1_2 (F := F)) (StableHlo.after (hostOps1_1 (F := F)) (StableHlo.after (hostOps1 (F := F)) X))

/-- The rows of the product gathered along the edges' sources (indices below zero wrapped by the node count). -/
theorem s1_v39 (h : FVec F Cert.ReferenceIdeal.S50000x256 .f32) (x1 : (⟨Cert.ReferenceIdeal.S2x800000, .i32⟩ : BufTy).Contents (Elt F))
    (h7 : X (Proc.devRef .tc main_v7) = h) (h3 : X (Proc.devRef .tc main_v3) = Cert.ReferenceIdeal.ReadP.val_main_v3 (F := F) x1) :
    after1 X (Proc.devRef .tc main_v39)
      = Host.gather Cert.ReferenceIdeal.gather_S50000x256_S850000x1_S850000x256_1_0_n_n_0_1_1256 h (Cert.ReferenceIdeal.ReadP.val_main_v38 (F := F) x1) := by
  dsimp only [after1]
  after_results_simp
  rw [h7, h3]; rfl

/-- The normalisation 1/sqrt(deg(source)) · 1/sqrt(deg(target)) per edge, as a column. -/
theorem s1_v40 (x1 : (⟨Cert.ReferenceIdeal.S2x800000, .i32⟩ : BufTy).Contents (Elt F))
    (h3 : X (Proc.devRef .tc main_v3) = Cert.ReferenceIdeal.ReadP.val_main_v3 (F := F) x1) (h6 : X (Proc.devRef .tc main_v6) = Cert.ReferenceIdeal.ReadP.val_main_v6 (F := F) x1) :
    after1 X (Proc.devRef .tc main_v40) = Cert.ReferenceIdeal.ReadP.val_main_v40 (F := F) x1 := by
  dsimp only [after1]
  after_results_simp
  rw [h3, h6]
  exact Eq.trans rfl ((Cert.Gcn.Layout.col_eq (Cert.ReferenceIdeal.ReadP.val_main_v32 (F := F) x1)).trans rfl)

theorem s1_v3 : after1 X (Proc.devRef .tc main_v3) = X (Proc.devRef .tc main_v3) := by dsimp only [after1]; after_results_simp
theorem s1_v6 : after1 X (Proc.devRef .tc main_v6) = X (Proc.devRef .tc main_v6) := by dsimp only [after1]; after_results_simp
theorem s1_arg3 : after1 X (Proc.devRef .tc main_arg3) = X (Proc.devRef .tc main_arg3) := by dsimp only [after1]; after_results_simp
theorem s1_arg4 : after1 X (Proc.devRef .tc main_arg4) = X (Proc.devRef .tc main_arg4) := by dsimp only [after1]; after_results_simp
theorem s1_arg5 : after1 X (Proc.devRef .tc main_arg5) = X (Proc.devRef .tc main_arg5) := by dsimp only [after1]; after_results_simp
end Stretch1

theorem b5_v39 : W5 m ρ c (Proc.devRef .tc main_v39) = Cert.ReferenceIdeal.ReadP.val_main_v39 (F := Ideal) (a0 m c) (a1 m c) (a2 m c) :=
  (s1_v39 (W2 m ρ c) _ _ (b2_v7 m ρ c) (b2_v3 m ρ c)).trans rfl
theorem b5_v40 : W5 m ρ c (Proc.devRef .tc main_v40) = Cert.ReferenceIdeal.ReadP.val_main_v40 (F := Ideal) (a1 m c) :=
  s1_v40 (W2 m ρ c) _ (b2_v3 m ρ c) (b2_v6 m ρ c)
theorem b5_v3 : W5 m ρ c (Proc.devRef .tc main_v3) = Cert.ReferenceIdeal.ReadP.val_main_v3 (F := Ideal) (a1 m c) := (s1_v3 (W2 m ρ c)).trans (b2_v3 m ρ c)
theorem b5_v6 : W5 m ρ c (Proc.devRef .tc main_v6) = Cert.ReferenceIdeal.ReadP.val_main_v6 (F := Ideal) (a1 m c) := (s1_v6 (W2 m ρ c)).trans (b2_v6 m ρ c)
theorem b5_arg3 : W5 m ρ c (Proc.devRef .tc main_arg3) = a3 m c := (s1_arg3 (W2 m ρ c)).trans (b2_arg3 m ρ c)
theorem b5_arg4 : W5 m ρ c (Proc.devRef .tc main_arg4) = a4 m c := (s1_arg4 (W2 m ρ c)).trans (b2_arg4 m ρ c)
theorem b5_arg5 : W5 m ρ c (Proc.devRef .tc main_arg5) = a5 m c := (s1_arg5 (W2 m ρ c)).trans (b2_arg5 m ρ c)

/-! ## After the second launch: each gathered row times its normalisation -/

theorem b6_v41 : W6 m ρ c (Proc.devRef .tc main_v41) = Cert.ReferenceIdeal.ReadP.val_main_v42 (F := Ideal) (a0 m c) (a1 m c) (a2 m c) := by
  have e39 : V5 m ρ c main_v39 = Cert.ReferenceIdeal.ReadP.val_main_v39 (F := Ideal) (a0 m c) (a1 m c) (a2 m c) := b5_v39 m ρ c
  have e40 : V5 m ρ c main_v40 = Cert.ReferenceIdeal.ReadP.val_main_v40 (F := Ideal) (a1 m c) := b5_v40 m ρ c
  refine (W6_arr m ρ c 2).trans ((Cert.Gcn.Region.arr1 (V5 m ρ) c).trans ?_)
  rw [e39, e40]; rfl
theorem b6_v3 : W6 m ρ c (Proc.devRef .tc main_v3) = Cert.ReferenceIdeal.ReadP.val_main_v3 (F := Ideal) (a1 m c) := (W6_of_ne m ρ c main_v3 (by decide)).trans (b5_v3 m ρ c)
theorem b6_v6 : W6 m ρ c (Proc.devRef .tc main_v6) = Cert.ReferenceIdeal.ReadP.val_main_v6 (F := Ideal) (a1 m c) := (W6_of_ne m ρ c main_v6 (by decide)).trans (b5_v6 m ρ c)
theorem b6_arg3 : W6 m ρ c (Proc.devRef .tc main_arg3) = a3 m c := (W6_of_ne m ρ c main_arg3 (by decide)).trans (b5_arg3 m ρ c)
theorem b6_arg4 : W6 m ρ c (Proc.devRef .tc main_arg4) = a4 m c := (W6_of_ne m ρ c main_arg4 (by decide)).trans (b5_arg4 m ρ c)
theorem b6_arg5 : W6 m ρ c (Proc.devRef .tc main_arg5) = a5 m c := (W6_of_ne m ρ c main_arg5 (by decide)).trans (b5_arg5 m ρ c)

/-! ## Before the third launch: the messages summed over incoming edges, and the bias as a row -/

section Stretch2
variable {F : FTy → Type} [FloatOps F] (X : Valuation τ sig (Elt F))

/-- The scaled rows added up at their edges' targets, from zero. -/
theorem s2_v44 (u : FVec F Cert.ReferenceIdeal.S850000x256 .f32) (x1 : (⟨Cert.ReferenceIdeal.S2x800000, .i32⟩ : BufTy).Contents (Elt F))
    (h41 : X (Proc.devRef .tc main_v41) = u) (h6 : X (Proc.devRef .tc main_v6) = Cert.ReferenceIdeal.ReadP.val_main_v6 (F := F) x1) :
    StableHlo.after (hostOps2 (F := F)) X (Proc.devRef .tc main_v44)
      = Host.scatterAdd Cert.ReferenceIdeal.scatter_S50000x256_S850000x1_S850000x256_1_0_0_1 (Cert.ReferenceIdeal.ReadP.val_main_v43 (F := F)) (Cert.ReferenceIdeal.ReadP.val_main_v44 (F := F) x1) u := by
  after_results
  rw [h41, h6]; rfl

/-- The bias as a row. -/
theorem s2_v45 : StableHlo.after (hostOps2 (F := F)) X (Proc.devRef .tc main_v45) = Cert.ReferenceIdeal.ReadP.val_main_v46 (F := F) (X (Proc.devRef .tc main_arg3)) := by
  after_results
  exact Eq.trans rfl ((Cert.Gcn.Layout.row256_eq (X (Proc.devRef .tc main_arg3))).trans rfl)

theorem s2_v3 : StableHlo.after (hostOps2 (F := F)) X (Proc.devRef .tc main_v3) = X (Proc.devRef .tc main_v3) := by after_results
theorem s2_v6 : StableHlo.after (hostOps2 (F := F)) X (Proc.devRef .tc main_v6) = X (Proc.devRef .tc main_v6) := by after_results
theorem s2_arg4 : StableHlo.after (hostOps2 (F := F)) X (Proc.devRef .tc main_arg4) = X (Proc.devRef .tc main_arg4) := by after_results
theorem s2_arg5 : StableHlo.after (hostOps2 (F := F)) X (Proc.devRef .tc main_arg5) = X (Proc.devRef .tc main_arg5) := by after_results
end Stretch2

theorem b7_v44 : W7 m ρ c (Proc.devRef .tc main_v44) = Cert.ReferenceIdeal.ReadP.val_main_v45 (F := Ideal) (a0 m c) (a1 m c) (a2 m c) :=
  (s2_v44 (W6 m ρ c) _ _ (b6_v41 m ρ c) (b6_v6 m ρ c)).trans rfl
theorem b7_v45 : W7 m ρ c (Proc.devRef .tc main_v45) = Cert.ReferenceIdeal.ReadP.val_main_v46 (F := Ideal) (a3 m c) :=
  (s2_v45 (W6 m ρ c)).trans (congrArg _ (b6_arg3 m ρ c))
theorem b7_v3 : W7 m ρ c (Proc.devRef .tc main_v3) = Cert.ReferenceIdeal.ReadP.val_main_v3 (F := Ideal) (a1 m c) := (s2_v3 (W6 m ρ c)).trans (b6_v3 m ρ c)
theorem b7_v6 : W7 m ρ c (Proc.devRef .tc main_v6) = Cert.ReferenceIdeal.ReadP.val_main_v6 (F := Ideal) (a1 m c) := (s2_v6 (W6 m ρ c)).trans (b6_v6 m ρ c)
theorem b7_arg4 : W7 m ρ c (Proc.devRef .tc main_arg4) = a4 m c := (s2_arg4 (W6 m ρ c)).trans (b6_arg4 m ρ c)
theorem b7_arg5 : W7 m ρ c (Proc.devRef .tc main_arg5) = a5 m c := (s2_arg5 (W6 m ρ c)).trans (b6_arg5 m ρ c)

/-! ## After the third launch: the bias added and the positive part taken -/

theorem b8_v46 : W8 m ρ c (Proc.devRef .tc main_v46) = Cert.ReferenceIdeal.ReadP.val_main_v49 (F := Ideal) (a0 m c) (a1 m c) (a2 m c) (a3 m c) := by
  have e44 : V7 m ρ c main_v44 = Cert.ReferenceIdeal.ReadP.val_main_v45 (F := Ideal) (a0 m c) (a1 m c) (a2 m c) := b7_v44 m ρ c
  have e45 : V7 m ρ c main_v45 = Cert.ReferenceIdeal.ReadP.val_main_v46 (F := Ideal) (a3 m c) := b7_v45 m ρ c
  refine (W8_arr m ρ c 2).trans ((Cert.Gcn.Region.arr2 (V7 m ρ) c).trans ?_)
  rw [e44, e45]; rfl
theorem b8_v3 : W8 m ρ c (Proc.devRef .tc main_v3) = Cert.ReferenceIdeal.ReadP.val_main_v3 (F := Ideal) (a1 m c) := (W8_of_ne m ρ c main_v3 (by decide)).trans (b7_v3 m ρ c)
theorem b8_v6 : W8 m ρ c (Proc.devRef .tc main_v6) = Cert.ReferenceIdeal.ReadP.val_main_v6 (F := Ideal) (a1 m c) := (W8_of_ne m ρ c main_v6 (by decide)).trans (b7_v6 m ρ c)
theorem b8_arg4 : W8 m ρ c (Proc.devRef .tc main_arg4) = a4 m c := (W8_of_ne m ρ c main_arg4 (by decide)).trans (b7_arg4 m ρ c)
theorem b8_arg5 : W8 m ρ c (Proc.devRef .tc main_arg5) = a5 m c := (W8_of_ne m ρ c main_arg5 (by decide)).trans (b7_arg5 m ρ c)

/-- What the first layer hands to the second. -/
theorem afterLayer1 : AfterLayer1 m c ρ :=
  ⟨b8_v46 m ρ c, b8_v3 m ρ c, b8_v6 m ρ c, b8_arg4 m ρ c, b8_arg5 m ρ c⟩

end Cert.Gcn.Chain

end
-- ==== Proof.ChainL2.lean ====
import proofs.«141999_j36636071035639_1_alg».proof.Proof.Gen.KernelIdeal.Frame
import proofs.«141999_j36636071035639_1_alg».proof.Proof.RefReadP
import proofs.«141999_j36636071035639_1_alg».proof.Proof.RegionMatmul
import proofs.«141999_j36636071035639_1_alg».proof.Proof.RegionScale
import proofs.«141999_j36636071035639_1_alg».proof.Proof.RegionBias
import proofs.«141999_j36636071035639_1_alg».proof.Proof.Layout
import proofs.«141999_j36636071035639_1_alg».proof.Proof.ChainArgs
import Idealize.ShloMosaic.Lib.StableHlo.Run
import Idealize.ShloMosaic.Lib.Pipeline.Value

/-!
  The second layer, read off the run's boundary contents from the first layer's output on. At each boundary
  between the program's segments the buffers still to be read hold the same arrays as the reference's stages:
  the second product h · W2, its rows gathered along the edges and scaled by the symmetric normalisation,
  their sum over incoming edges, and the bias. A host stretch computes the same operations as the reference, so
  its results are the reference's stages of equal operands; a launch's output array is the stage function of
  its input arrays; every other buffer is kept.
-/

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the fourth launch: the second product -/

/-- The fourth launch multiplies the first layer's output by the second layer's weights: its output array is the
    product h · W2, the reference's stage of the five arguments it depends on. -/
theorem product_at9 (hL1 : AfterLayer1 m c ρ) :
    W9 m ρ c (Proc.devRef .tc main_v47)
      = Cert.ReferenceIdeal.ReadP.val_main_v50 (F := Ideal) (a0 m c) (a1 m c) (a2 m c) (a3 m c) (a4 m c) := by
  have eh : V8 m ρ c main_v46 = Cert.ReferenceIdeal.ReadP.val_main_v49 (F := Ideal) (a0 m c) (a1 m c) (a2 m c) (a3 m c) := hL1.h46
  have ew : V8 m ρ c main_arg4 = a4 m c := hL1.h4
  refine (W9_arr m ρ c 2).trans ((Cert.Gcn.Region.arr3 (V8 m ρ) c).trans ?_)
  rw [eh, ew]; rfl

/-- The launch leaves the edges' sources as they were. -/
theorem sources_at9 (hL1 : AfterLayer1 m c ρ) :
    W9 m ρ c (Proc.devRef .tc main_v3) = Cert.ReferenceIdeal.ReadP.val_main_v3 (F := Ideal) (a1 m c) :=
  (W9_of_ne m ρ c main_v3 (by decide)).trans hL1.h3

/-- The launch leaves the edges' targets as they were. -/
theorem targets_at9 (hL1 : AfterLayer1 m c ρ) :
    W9 m ρ c (Proc.devRef .tc main_v6) = Cert.ReferenceIdeal.ReadP.val_main_v6 (F := Ideal) (a1 m c) :=
  (W9_of_ne m ρ c main_v6 (by decide)).trans hL1.h6

/-- The launch leaves the second layer's bias as it was. -/
theorem bias_at9 (hL1 : AfterLayer1 m c ρ) : W9 m ρ c (Proc.devRef .tc main_arg5) = a5 m c :=
  (W9_of_ne m ρ c main_arg5 (by decide)).trans hL1.h5

/-! ## Before the fifth launch: the product's rows along the edges, and the normalisation per edge -/

section EdgeStretch
variable {F : FTy → Type} [FloatOps F] (X : Valuation τ sig (Elt F))

/-- The host operations between the fourth and the fifth launch, in their three stretches: the node degrees and
    their inverse square roots, the choice that guards a node of degree zero, and the gathers along the edges. -/
abbrev edgeStretch : Valuation τ sig (Elt F) :=
  StableHlo.after (hostOps4_2 (F := F)) (StableHlo.after (hostOps4_1 (F := F)) (StableHlo.after (hostOps4 (F := F)) X))

/-- Row e of the gathered array is the row of the product h at the source node of edge e (a source index below
    zero is first wrapped by the node count): the same gather, by the same index column, as the reference's. -/
theorem edgeStretch_rows (h : FVec F Cert.ReferenceIdeal.S50000x128 .f32)
    (x1 : (⟨Cert.ReferenceIdeal.S2x800000, .i32⟩ : BufTy).Contents (Elt F))
    (hp : X (Proc.devRef .tc main_v47) = h)
    (hs : X (Proc.devRef .tc main_v3) = Cert.ReferenceIdeal.ReadP.val_main_v3 (F := F) x1) :
    edgeStretch X (Proc.devRef .tc main_v79)
      = Host.gather Cert.ReferenceIdeal.gather_S50000x128_S850000x1_S850000x128_1_0_n_n_0_1_1128 h
          (Cert.ReferenceIdeal.ReadP.val_main_v81 (F := F) x1) := by
  dsimp only [edgeStretch]
  after_results_simp
  rw [hp, hs]; rfl

/-- Entry (e, 0) of the coefficient column is deg(source e)^(-1/2) · deg(target e)^(-1/2), the degrees counted
    over the targets: the reference's vector of these products, which the program lays out as a column by a
    reshape and the reference by a broadcast along the edge axis. -/
theorem edgeStretch_norm (x1 : (⟨Cert.ReferenceIdeal.S2x800000, .i32⟩ : BufTy).Contents (Elt F))
    (hs : X (Proc.devRef .tc main_v3) = Cert.ReferenceIdeal.ReadP.val_main_v3 (F := F) x1)
    (ht : X (Proc.devRef .tc main_v6) = Cert.ReferenceIdeal.ReadP.val_main_v6 (F := F) x1) :
    edgeStretch X (Proc.devRef .tc main_v80) = Cert.ReferenceIdeal.ReadP.val_main_v83 (F := F) x1 := by
  dsimp only [edgeStretch]
  after_results_simp
  rw [hs, ht]
  exact Eq.trans rfl ((Cert.Gcn.Layout.col_eq (Cert.ReferenceIdeal.ReadP.val_main_v75 (F := F) x1)).trans rfl)

/-- None of these operations writes the edges' targets. -/
theorem edgeStretch_targets : edgeStretch X (Proc.devRef .tc main_v6) = X (Proc.devRef .tc main_v6) := by
  dsimp only [edgeStretch]; after_results_simp

/-- None of these operations writes the second layer's bias. -/
theorem edgeStretch_bias : edgeStretch X (Proc.devRef .tc main_arg5) = X (Proc.devRef .tc main_arg5) := by
  dsimp only [edgeStretch]; after_results_simp

end EdgeStretch

/-- When the fifth launch is entered its first input holds the product's rows gathered along the edges. -/
theorem rows_at12 (hL1 : AfterLayer1 m c ρ) :
    W12 m ρ c (Proc.devRef .tc main_v79)
      = Cert.ReferenceIdeal.ReadP.val_main_v82 (F := Ideal) (a0 m c) (a1 m c) (a2 m c) (a3 m c) (a4 m c) :=
  (edgeStretch_rows (W9 m ρ c) _ _ (product_at9 m ρ c hL1) (sources_at9 m ρ c hL1)).trans rfl

/-- Its second input holds the normalisation per edge, as a column. -/
theorem norm_at12 (hL1 : AfterLayer1 m c ρ) :
    W12 m ρ c (Proc.devRef .tc main_v80) = Cert.ReferenceIdeal.ReadP.val_main_v83 (F := Ideal) (a1 m c) :=
  edgeStretch_norm (W9 m ρ c) _ (sources_at9 m ρ c hL1) (targets_at9 m ρ c hL1)

theorem targets_at12 (hL1 : AfterLayer1 m c ρ) :
    W12 m ρ c (Proc.devRef .tc main_v6) = Cert.ReferenceIdeal.ReadP.val_main_v6 (F := Ideal) (a1 m c) :=
  (edgeStretch_targets (W9 m ρ c)).trans (targets_at9 m ρ c hL1)

theorem bias_at12 (hL1 : AfterLayer1 m c ρ) : W12 m ρ c (Proc.devRef .tc main_arg5) = a5 m c :=
  (edgeStretch_bias (W9 m ρ c)).trans (bias_at9 m ρ c hL1)

/-! ## After the fifth launch: each edge's message -/

/-- The fifth launch scales row e by the coefficient of edge e: its output array holds the messages
    h[source e, ·] · norm[e], the reference's product of the gathered rows with the coefficient column spread
    over the 128 columns. -/
theorem messages_at13 (hL1 : AfterLayer1 m c ρ) :
    W13 m ρ c (Proc.devRef .tc main_v81)
      = Cert.ReferenceIdeal.ReadP.val_main_v85 (F := Ideal) (a0 m c) (a1 m c) (a2 m c) (a3 m c) (a4 m c) := by
  have eg : V12 m ρ c main_v79 = Cert.ReferenceIdeal.ReadP.val_main_v82 (F := Ideal) (a0 m c) (a1 m c) (a2 m c) (a3 m c) (a4 m c) :=
    rows_at12 m ρ c hL1
  have en : V12 m ρ c main_v80 = Cert.ReferenceIdeal.ReadP.val_main_v83 (F := Ideal) (a1 m c) := norm_at12 m ρ c hL1
  refine (W13_arr m ρ c 2).trans ((Cert.Gcn.Region.arr4 (V12 m ρ) c).trans ?_)
  rw [eg, en]; rfl

theorem targets_at13 (hL1 : AfterLayer1 m c ρ) :
    W13 m ρ c (Proc.devRef .tc main_v6) = Cert.ReferenceIdeal.ReadP.val_main_v6 (F := Ideal) (a1 m c) :=
  (W13_of_ne m ρ c main_v6 (by decide)).trans (targets_at12 m ρ c hL1)

theorem bias_at13 (hL1 : AfterLayer1 m c ρ) : W13 m ρ c (Proc.devRef .tc main_arg5) = a5 m c :=
  (W13_of_ne m ρ c main_arg5 (by decide)).trans (bias_at12 m ρ c hL1)

/-! ## Before the last launch: the messages summed at their targets, and the bias as a row -/

section SumStretch
variable {F : FTy → Type} [FloatOps F] (X : Valuation τ sig (Elt F))

/-- Row v of the sum is the sum, from zero, of the messages of the edges whose target is node v: the same
    scatter-add, by the same index column, as the reference's. -/
theorem sumStretch_sum (u : FVec F Cert.ReferenceIdeal.S850000x128 .f32)
    (x1 : (⟨Cert.ReferenceIdeal.S2x800000, .i32⟩ : BufTy).Contents (Elt F))
    (hu : X (Proc.devRef .tc main_v81) = u)
    (ht : X (Proc.devRef .tc main_v6) = Cert.ReferenceIdeal.ReadP.val_main_v6 (F := F) x1) :
    StableHlo.after (hostOps5 (F := F)) X (Proc.devRef .tc main_v84)
      = Host.scatterAdd Cert.ReferenceIdeal.scatter_S50000x128_S850000x1_S850000x128_1_0_0_1
          (Cert.ReferenceIdeal.ReadP.val_main_v86 (F := F)) (Cert.ReferenceIdeal.ReadP.val_main_v87 (F := F) x1) u := by
  after_results
  rw [hu, ht]; rfl

/-- The bias vector as a row [1, 128]: the program reshapes it, the reference broadcasts it along the columns. -/
theorem sumStretch_biasRow :
    StableHlo.after (hostOps5 (F := F)) X (Proc.devRef .tc main_v85)
      = Cert.ReferenceIdeal.ReadP.val_main_v89 (F := F) (X (Proc.devRef .tc main_arg5)) := by
  after_results
  exact Eq.trans rfl ((Cert.Gcn.Layout.row128_eq (X (Proc.devRef .tc main_arg5))).trans rfl)

end SumStretch

/-- When the last launch is entered its first input holds the messages summed over each node's incoming edges. -/
theorem sum_at14 (hL1 : AfterLayer1 m c ρ) :
    W14 m ρ c (Proc.devRef .tc main_v84)
      = Cert.ReferenceIdeal.ReadP.val_main_v88 (F := Ideal) (a0 m c) (a1 m c) (a2 m c) (a3 m c) (a4 m c) :=
  (sumStretch_sum (W13 m ρ c) _ _ (messages_at13 m ρ c hL1) (targets_at13 m ρ c hL1)).trans rfl

/-- Its second input holds the second layer's bias as a row. -/
theorem biasRow_at14 (hL1 : AfterLayer1 m c ρ) :
    W14 m ρ c (Proc.devRef .tc main_v85) = Cert.ReferenceIdeal.ReadP.val_main_v89 (F := Ideal) (a5 m c) :=
  (sumStretch_biasRow (W13 m ρ c)).trans (congrArg _ (bias_at13 m ρ c hL1))

/-! ## After the last launch: the bias added to every row -/

/-- THE RESULT: after the last launch the result array is the reference's last stage of the six arguments. -/
theorem b15_v86 (hL1 : AfterLayer1 m c ρ) :
    W15 m ρ c (Proc.devRef .tc main_v86)
      = Cert.ReferenceIdeal.ReadP.val_main_v91 (F := Ideal) (a0 m c) (a1 m c) (a2 m c) (a3 m c) (a4 m c) (a5 m c) := by
  have es : V14 m ρ c main_v84 = Cert.ReferenceIdeal.ReadP.val_main_v88 (F := Ideal) (a0 m c) (a1 m c) (a2 m c) (a3 m c) (a4 m c) :=
    sum_at14 m ρ c hL1
  have eb : V14 m ρ c main_v85 = Cert.ReferenceIdeal.ReadP.val_main_v89 (F := Ideal) (a5 m c) := biasRow_at14 m ρ c hL1
  refine (W15_arr m ρ c 2).trans ((Cert.Gcn.Region.arr5 (V14 m ρ) c).trans ?_)
  rw [es, eb]; rfl

end Cert.Gcn.Chain

end
-- ==== Proof.lean ====
/-
  A two-layer graph convolution on 50000 nodes and 800000 edges (with the 50000 self-loops appended): each layer is
  out = D^(-1/2) · A · D^(-1/2) · (x · W) + b, computed edge by edge — the product x · W, its rows gathered along the
  edges' sources, each row scaled by 1/sqrt(deg(source)) · 1/sqrt(deg(target)), the rows summed at the edges'
  targets, the bias added —, the first layer followed by the positive part max(·, 0).
  The kernel program computes the two products, the two row scalings and the two bias additions in six launches
  and everything else (the edge lists, the degrees and their inverse square roots, the gathers, the sums over
  incoming edges) by the same host operations as the reference. Over the extended reals a product into a zero
  accumulator is the contraction sum (a change of float format is the identity), a row times its coefficient and a
  row plus the bias are the same entries whichever side broadcasts, and the blocks of each launch tile its array;
  so at every boundary between the program's segments the buffers hold the reference's stages of the arguments
  (the two chain modules), and the result array is the reference's last stage. No law of the extended reals
  beyond these identifications is used, so the finiteness of the inputs is never opened. The idealization
  rewrote nothing, so the kernel's idealized form is its own text read over the extended reals.
-/
import proofs.«141999_j36636071035639_1_alg».proof.Defs
import proofs.«141999_j36636071035639_1_alg».proof.Proof.Gen.Kernel
import proofs.«141999_j36636071035639_1_alg».proof.Proof.Gen.Kernel.Frame
import proofs.«141999_j36636071035639_1_alg».proof.Proof.Gen.KernelIdeal
import proofs.«141999_j36636071035639_1_alg».proof.Proof.Gen.KernelIdeal.Frame
import proofs.«141999_j36636071035639_1_alg».proof.Proof.Gen.ReferenceIdeal
import proofs.«141999_j36636071035639_1_alg».proof.Proof.Gen.Pre_finite_inputs
import proofs.«141999_j36636071035639_1_alg».proof.Proof.KernelRun
import proofs.«141999_j36636071035639_1_alg».proof.Proof.RefRunP
import proofs.«141999_j36636071035639_1_alg».proof.Proof.RefReadP
import proofs.«141999_j36636071035639_1_alg».proof.Proof.ChainL1
import proofs.«141999_j36636071035639_1_alg».proof.Proof.ChainL2
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The kernel over the extended reals runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result array at the reference's last stage of the six arguments: the kernel's by
    the chain through its segment boundaries, the reference's by its own run, the arguments agreeing. -/
theorem algebraic : Cert.algebraic_KernelIdeal_ReferenceIdeal := by
  intro m ρ m' ρ' _ hagree
  refine ⟨fun c => Cert.ReferenceIdeal.ReadP.val_main_v91 (F := Ideal) (Cert.Gcn.Chain.a0 m c) (Cert.Gcn.Chain.a1 m c) (Cert.Gcn.Chain.a2 m c) (Cert.Gcn.Chain.a3 m c) (Cert.Gcn.Chain.a4 m c) (Cert.Gcn.Chain.a5 m c), ?_, ?_⟩
  · exact (θ_run Cert.KernelIdeal.defs _ _).mono
      (fun r h c => ⟨(h c).1.trans (Cert.Gcn.Chain.b15_v86 m ρ c (Cert.Gcn.Chain.afterLayer1 m ρ c)), (h c).2⟩)
      (Cert.KernelIdeal.GenRun.run_named m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v91_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
